-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S16x512 : Shape := ⟨2, ![16, 512]⟩
abbrev S16 : Shape := ⟨1, ![16]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_arg4 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_c_6 : IVec S_ 32 := constantI S_ 32 0#32
  let main_v19 : IVec S131072 32 := broadcastInDim S131072 ![] bcast_S_S131072 main_c_6
  let main_v20 : IVec S131072 1 := cmpi .sge main_arg1 main_v19
  let main_c_7 : IVec S_ 1 := constantI S_ 1 1#1
  let main_v21 : IVec S_ 1 := (fun x v => Host.reduce IntOp.andi x v reducesTo_S131072_S_d0 h_S_) main_v20 main_c_7
  let main_v22 : IVec S_ 1 := andi main_v18 main_v21
  let main_c_8 : IVec S_ 32 := constantI S_ 32 16#32
  let main_v23 : IVec S131072 32 := broadcastInDim S131072 ![] bcast_S_S131072 main_c_8
  let main_v24 : IVec S131072 1 := cmpi .slt main_arg1 main_v23
  let main_c_9 : IVec S_ 1 := constantI S_ 1 1#1
  let main_v25 : IVec S_ 1 := (fun x v => Host.reduce IntOp.andi x v reducesTo_S131072_S_d0 h_S_) main_v24 main_c_9
  let main_v26 : IVec S_ 1 := andi main_v22 main_v25
  let main_cst_10 : FVec F S_ .f32 := constant S_ .f32 0x00000000#32
  let main_v27 : FVec F S16 .f32 := broadcastInDim S16 ![] bcast_S_S16 main_cst_10
  let main_v28 : IVec S16 1 := cmpf .ogt main_arg4 main_v27
  let main_c_11 : IVec S_ 1 := constantI S_ 1 1#1
  let main_v29 : IVec S_ 1 := (fun x v => Host.reduce IntOp.andi x v reducesTo_S16_S_d0 h_S_) main_v28 main_c_11
  let main_v30 : IVec S_ 1 := andi main_v26 main_v29
  main_v30

def fn {F : FTy → Type} [FloatOps F] (main_arg0 : FVec F S131072x512 .f32) (main_arg1 : IVec S131072 32) (main_arg2 : FVec F S16x512 .f32) (main_arg3 : FVec F S16x512 .f32) (main_arg4 : FVec F S16 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_v13 main_v16
-- ==== Kernel.lean ====
abbrev S131072x512 : Shape := ⟨2, ![131072, 512]⟩
abbrev S131072 : Shape := ⟨1, ![131072]⟩
abbrev S16x512 : Shape := ⟨2, ![16, 512]⟩
abbrev S16 : Shape := ⟨1, ![16]⟩
abbrev S2x16x512 : Shape := ⟨3, ![2, 16, 512]⟩
abbrev S2048x512 : Shape := ⟨2, ![2048, 512]⟩
abbrev S2048 : Shape := ⟨1, ![2048]⟩
abbrev S1x16x512 : Shape := ⟨3, ![1, 16, 512]⟩
abbrev S2048x16 : Shape := ⟨2, ![2048, 16]⟩
abbrev S2048x1 : Shape := ⟨2, ![2048, 1]⟩
abbrev S_ : Shape := ⟨0, ![]⟩
abbrev S131072x1 : Shape := ⟨2, ![131072, 1]⟩
abbrev S16x1 : Shape := ⟨2, ![16, 1]⟩
abbrev S1024x512 : Shape := ⟨2, ![1024, 512]⟩
abbrev S1024 : Shape := ⟨1, ![1024]⟩
abbrev S1024x16 : Shape := ⟨2, ![1024, 16]⟩
abbrev S1024x1 : Shape := ⟨2, ![1024, 1]⟩

abbrev nBuf : Space → Nat
  | .hbm => 60
  | .vmem => 18
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S16x512, .f32⟩
  | .hbm, ⟨3, _⟩ => ⟨S16x512, .f32⟩
  | .hbm, ⟨4, _⟩ => ⟨S16, .f32⟩
  | .hbm, ⟨5, _⟩ => ⟨S2x16x512, .f32⟩
  | .hbm, ⟨6, _⟩ => ⟨S2x16x512, .f32⟩
  | .hbm, ⟨7, _⟩ => ⟨S_, .f32⟩
  | .hbm, ⟨8, _⟩ => ⟨S16x512, .f32⟩
  | .hbm, ⟨9, _⟩ => ⟨S_, .f32⟩
  | .hbm, ⟨10, _⟩ => ⟨S16x512, .f32⟩
  | .hbm, ⟨11, _⟩ => ⟨S_, .f32⟩
  | .hbm, ⟨12, _⟩ => ⟨S131072, .f32⟩
  | .hbm, ⟨13, _⟩ => ⟨S_, .f32⟩
  | .hbm, ⟨14, _⟩ => ⟨S16, .f32⟩
  | .hbm, ⟨15, _⟩ => ⟨S131072x1, .i32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16x1, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S16x512, .f32⟩
  | .hbm, ⟨27, _⟩ => ⟨S_, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S16, .f32⟩
  | .hbm, ⟨32, _⟩ => ⟨S16x1, .f32⟩
  | .hbm, ⟨33, _⟩ => ⟨S16x512, .f32⟩
  | .hbm, ⟨34, _⟩ => ⟨S16x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S_, .f32⟩
  | .hbm, ⟨42, _⟩ => ⟨S16, .f32⟩
  | .hbm, ⟨43, _⟩ => ⟨S16, .i1⟩
  | .hbm, ⟨44, _⟩ => ⟨S16x1, .i1⟩
  | .hbm, ⟨45, _⟩ => ⟨S_, .f32⟩
  | .hbm, ⟨46, _⟩ => ⟨S16x512, .f32⟩
  | .hbm, ⟨47, _⟩ => ⟨S16x512, .i1⟩
  | .hbm, ⟨48, _⟩ => ⟨S16x512, .f32⟩
  | .hbm, ⟨49, _⟩ => ⟨S_, .f32⟩
  | .hbm, ⟨50, _⟩ => ⟨S16x512, .f32⟩
  | .hbm, ⟨51, _⟩ => ⟨S16x512, .i1⟩
  | .hbm, ⟨52, _⟩ => ⟨S16x512, .f32⟩
  | .hbm, ⟨53, _⟩ => ⟨S16x512, .bf16⟩
  | .hbm, ⟨54, _⟩ => ⟨S16x512, .f32⟩
  | .hbm, ⟨55, _⟩ => ⟨S16x512, .f32⟩
  | .hbm, ⟨56, _⟩ => ⟨S16x512, .bf16⟩
  | .hbm, ⟨57, _⟩ => ⟨S16x512, .f32⟩
  | .hbm, ⟨58, _⟩ => ⟨S16x512, .f32⟩
  | .hbm, ⟨59, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S2048, .i32⟩
  | .local _ .vmem, ⟨3, _⟩ => ⟨S2048, .i32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S1024x512, .f32⟩
  | .local _ .vmem, ⟨9, _⟩ => ⟨S1024x512, .f32⟩
  | .local _ .vmem, ⟨10, _⟩ => ⟨S1024, .i32⟩
  | .local _ .vmem, ⟨11, _⟩ => ⟨S1024, .i32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S1024x512, .f32⟩
  | .local _ .vmem, ⟨17, _⟩ => ⟨S1024x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_call0_v0 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_call1_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  inb_S2048x512_S2048x512_0_0 : ∀ a, (![0, 0] : Fin 2 → Nat) a + S2048x512.size a ≤ S2048x512.size a
  h_S2048x512 : 0 < S2048x512.numel
  inb_S2048_S2048_0 : ∀ a, (![0] : Fin 1 → Nat) a + S2048.size a ≤ S2048.size a
  h_S2048 : 0 < S2048.numel
  iota_S2048x16_d1_w32 : S2048x16.Iotas .tc 32 [1]
  shapeCasts_S2048_S2048x1 : S2048.ShapeCasts S2048x1
  broadcasts_S2048x1_S2048x16 : S2048x1.Broadcasts S2048x16
  natLt_1_32 : 1 < 32
  reducesTo_S2x16x512_S16x512_d0 : S2x16x512.ReducesTo [0] S16x512
  h_S_ : 0 < S_.numel
  bcast_S_S131072 : S_.BroadcastsInDim S131072 (![] : Fin 0 → Fin S131072.rank)
  bcast_S_S16 : S_.BroadcastsInDim S16 (![] : Fin 0 → Fin S16.rank)
  bcast_S131072_S131072x1_0 : S131072.BroadcastsInDim S131072x1 (![0] : Fin 1 → Fin S131072x1.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  bcast_S_S16x512 : S_.BroadcastsInDim S16x512 (![] : Fin 0 → Fin S16x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  iota_S1024x16_d1_w32 : S1024x16.Iotas .tc 32 [1]
  shapeCasts_S1024_S1024x1 : S1024.ShapeCasts S1024x1
  broadcasts_S1024x1_S1024x16 : S1024x1.Broadcasts S1024x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  dot_S2048x16_S2048x512_S16x512_0_0_1_1_n_n_wf : DotDims.WF S2048x16 S2048x512 S16x512 [0] [0] [1] [1] [] []
  scatter_S16_S131072x1_S131072_n_0_0_1_wf : ScatterDims.WF S16 S131072x1 S131072 [] [0] [0] 1
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S131072.size a
  hwx0_1 : ∀ i : grid0.Coords, EltTy.bits .i32 = 32 ∨ (Rect.block (s := S131072) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S2x16x512.size a
  hwx0_2 : ∀ i : grid0.Coords, EltTy.bits .f32 = 32 ∨ (Rect.block (s := S2x16x512) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512.size a ≤ S2x16x512.size a
  hwx0_3 : ∀ i : grid0.Coords, EltTy.bits .f32 = 32 ∨ (Rect.block (s := S2x16x512) S1x16x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S131072x512.size a
  hwx1_0 : ∀ i : grid1.Coords, EltTy.bits .f32 = 32 ∨ (Rect.block (s := S131072x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S131072.size a
  hwx1_1 : ∀ i : grid1.Coords, EltTy.bits .i32 = 32 ∨ (Rect.block (s := S131072) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x512.size a
  hwx1_2 : ∀ i : grid1.Coords, EltTy.bits .f32 = 32 ∨ (Rect.block (s := S16x512) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512.size a ≤ S16x512.size a
  hwx1_3 : ∀ i : grid1.Coords, EltTy.bits .f32 = 32 ∨ (Rect.block (s := S16x512) S16x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x512.size a ≤ S16x512.size a
  hwx1_4 : ∀ i : grid1.Coords, EltTy.bits .f32 = 32 ∨ (Rect.block (s := S16x512) S16x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x512.size a ≤ S16x512.size a
  hwx1_5 : ∀ i : grid1.Coords, EltTy.bits .f32 = 32 ∨ (Rect.block (s := S16x512) S16x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S131072x512.size a
  hwx1_6 : ∀ i : grid1.Coords, EltTy.bits .f32 = 32 ∨ (Rect.block (s := S131072x512) S1024x512.size (cc1_transform_6 i) (hinb1_6 i)).WholeWords (EltTy.packing .f32)

variable [Facts₀]

def dot_S2048x16_S2048x512_S16x512_0_0_1_1_n_n : DotDims S2048x16 S2048x512 S16x512 where
  lhsContracting := [0]
  rhsContracting := [0]
  lhsNonContracting := [1]
  rhsNonContracting := [1]
  lhsBatch := []
  rhsBatch := []
  wf := dot_S2048x16_S2048x512_S16x512_0_0_1_1_n_n_wf
def scatter_S16_S131072x1_S131072_n_0_0_1 : ScatterDims S16 S131072x1 S131072 where
  updateWindowDims := []
  insertedWindowDims := [0]
  scatterDimsToOperandDims := [0]
  indexVectorDim := 1
  wf := scatter_S16_S131072x1_S131072_n_0_0_1_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S16x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S16x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S16x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S16x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S131072x512 : Shape := ⟨2, ![131072, 512]⟩
abbrev S131072 : Shape := ⟨1, ![131072]⟩
abbrev S16x512 : Shape := ⟨2, ![16, 512]⟩
abbrev S16 : Shape := ⟨1, ![16]⟩
abbrev S131072x1 : Shape := ⟨2, ![131072, 1]⟩
abbrev S_ : Shape := ⟨0, ![]⟩
abbrev S16x1 : Shape := ⟨2, ![16, 1]⟩

abbrev nBuf : Space → Nat
  | .hbm => 81
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S16x512, .f32⟩
  | .hbm, ⟨3, _⟩ => ⟨S16x512, .f32⟩
  | .hbm, ⟨4, _⟩ => ⟨S16, .f32⟩
  | .hbm, ⟨5, _⟩ => ⟨S131072x1, .f32⟩
  | .hbm, ⟨6, _⟩ => ⟨S131072, .f32⟩
  | .hbm, ⟨7, _⟩ => ⟨S_, .f32⟩
  | .hbm, ⟨8, _⟩ => ⟨S131072, .f32⟩
  | .hbm, ⟨9, _⟩ => ⟨S_, .f32⟩
  | .hbm, ⟨10, _⟩ => ⟨S16, .f32⟩
  | .hbm, ⟨11, _⟩ => ⟨S131072x1, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S_, .f32⟩
  | .hbm, ⟨18, _⟩ => ⟨S16x512, .f32⟩
  | .hbm, ⟨19, _⟩ => ⟨S131072x1, .i32⟩
  | .hbm, ⟨20, _⟩ => ⟨S16x512, .f32⟩
  | .hbm, ⟨21, _⟩ => ⟨S131072x512, .f32⟩
  | .hbm, ⟨22, _⟩ => ⟨S_, .f32⟩
  | .hbm, ⟨23, _⟩ => ⟨S16x512, .f32⟩
  | .hbm, ⟨24, _⟩ => ⟨S131072x1, .i32⟩
  | .hbm, ⟨25, _⟩ => ⟨S16x512, .f32⟩
  | .hbm, ⟨26, _⟩ => ⟨S16x512, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S_, .f32⟩
  | .hbm, ⟨33, _⟩ => ⟨S16x512, .f32⟩
  | .hbm, ⟨34, _⟩ => ⟨S16x512, .f32⟩
  | .hbm, ⟨35, _⟩ => ⟨S16x512, .f32⟩
  | .hbm, ⟨36, _⟩ => ⟨S16, .f32⟩
  | .hbm, ⟨37, _⟩ => ⟨S16x1, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S16x512, .f32⟩
  | .hbm, ⟨44, _⟩ => ⟨S16x512, .f32⟩
  | .hbm, ⟨45, _⟩ => ⟨S16x512, .f32⟩
  | .hbm, ⟨46, _⟩ => ⟨S_, .i32⟩
  | .hbm, ⟨47, _⟩ => ⟨S131072, .i32⟩
  | .hbm, ⟨48, _⟩ => ⟨S131072, .i1⟩
  | .hbm, ⟨49, _⟩ => ⟨S_, .i32⟩
  | .hbm, ⟨50, _⟩ => ⟨S131072, .i32⟩
  | .hbm, ⟨51, _⟩ => ⟨S131072, .i32⟩
  | .hbm, ⟨52, _⟩ => ⟨S131072, .i32⟩
  | .hbm, ⟨53, _⟩ => ⟨S131072x1, .i32⟩
  | .hbm, ⟨54, _⟩ => ⟨S131072x512, .f32⟩
  | .hbm, ⟨55, _⟩ => ⟨S131072x512, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x512, .f32⟩
  | .hbm, ⟨65, _⟩ => ⟨S131072x512, .f32⟩
  | .hbm, ⟨66, _⟩ => ⟨S_, .f32⟩
  | .hbm, ⟨67, _⟩ => ⟨S16, .f32⟩
  | .hbm, ⟨68, _⟩ => ⟨S16, .i1⟩
  | .hbm, ⟨69, _⟩ => ⟨S_, .i32⟩
  | .hbm, ⟨70, _⟩ => ⟨S131072, .i32⟩
  | .hbm, ⟨71, _⟩ => ⟨S131072, .i1⟩
  | .hbm, ⟨72, _⟩ => ⟨S_, .i32⟩
  | .hbm, ⟨73, _⟩ => ⟨S131072, .i32⟩
  | .hbm, ⟨74, _⟩ => ⟨S131072, .i32⟩
  | .hbm, ⟨75, _⟩ => ⟨S131072, .i32⟩
  | .hbm, ⟨76, _⟩ => ⟨S131072x1, .i32⟩
  | .hbm, ⟨77, _⟩ => ⟨S131072, .i1⟩
  | .hbm, ⟨78, _⟩ => ⟨S131072x1, .i1⟩
  | .hbm, ⟨79, _⟩ => ⟨S131072x512, .i1⟩
  | .hbm, ⟨80, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call0_v0 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  slices_S131072x512_S131072x1_0_0 : S131072x512.Slices ![0, 0] S131072x1
  shapeCasts_S131072x1_S131072 : S131072x1.ShapeCasts S131072
  bcast_S_S131072 : S_.BroadcastsInDim S131072 (![] : Fin 0 → Fin S131072.rank)
  bcast_S_S16 : S_.BroadcastsInDim S16 (![] : Fin 0 → Fin S16.rank)
  bcast_S131072_S131072x1_0 : S131072.BroadcastsInDim S131072x1 (![0] : Fin 1 → Fin S131072x1.rank)
  bcast_S16_S16x1_0 : S16.BroadcastsInDim S16x1 (![0] : Fin 1 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S131072x1_S131072x512_0_1 : S131072x1.BroadcastsInDim S131072x512 (![0, 1] : Fin 2 → Fin S131072x512.rank)
  scatter_S16_S131072x1_S131072_n_0_0_1_wf : ScatterDims.WF S16 S131072x1 S131072 [] [0] [0] 1
  scatter_S16x512_S131072x1_S131072x512_1_0_0_1_wf : ScatterDims.WF S16x512 S131072x1 S131072x512 [1] [0] [0] 1
  gather_S16x512_S131072x1_S131072x512_1_0_n_n_0_1_1512_wf : GatherDims.WF S16x512 S131072x1 S131072x512 [1] [0] [] [0] [] 1 ![1, 512]
  gather_S16_S131072x1_S131072_n_0_n_n_0_1_1_wf : GatherDims.WF S16 S131072x1 S131072 [] [0] [] [0] [] 1 ![1]

variable [Facts₀]

def scatter_S16_S131072x1_S131072_n_0_0_1 : ScatterDims S16 S131072x1 S131072 where
  updateWindowDims := []
  insertedWindowDims := [0]
  scatterDimsToOperandDims := [0]
  indexVectorDim := 1
  wf := scatter_S16_S131072x1_S131072_n_0_0_1_wf
def scatter_S16x512_S131072x1_S131072x512_1_0_0_1 : ScatterDims S16x512 S131072x1 S131072x512 where
  updateWindowDims := [1]
  insertedWindowDims := [0]
  scatterDimsToOperandDims := [0]
  indexVectorDim := 1
  wf := scatter_S16x512_S131072x1_S131072x512_1_0_0_1_wf
def gather_S16x512_S131072x1_S131072x512_1_0_n_n_0_1_1512 : GatherDims S16x512 S131072x1 S131072x512 where
  offsetDims := [1]
  collapsedSliceDims := [0]
  operandBatchingDims := []
  startIndicesBatchingDims := []
  startIndexMap := [0]
  indexVectorDim := 1
  sliceSizes := ![1, 512]
  wf := gather_S16x512_S131072x1_S131072x512_1_0_n_n_0_1_1512_wf
def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf

class Facts : Prop extends Facts₀ where

variable [Facts]
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.Spec.lean ====
import Idealize.ShloMosaic.PureOps.Ideal
import Idealize.ShloMosaic.Lib.ValueIdx
import proofs.«429366_j62783831933726_3_alg».proof.Proof.LibIdealReal

/-!
# Per-context batch normalisation with a prior scale: the function both programs compute

Rows `n` of a data matrix `x` (131072 × 512) carry a context label `ctx n` in `[0, 16)`. For each context `k`
the rows labelled `k` give a count, a column sum and a column sum of squares; from these come the mean, the
biased variance `E[x²] − E[x]²`, the reciprocal standard deviation `(var + ε)^(-1/2)`, and with the affine
parameters `γ, β` and the prior `p k` the per-context weight `w = γ · istd · p^(-1/2)` and offset
`b = (β − γ · mean · istd) · p^(-1/2)`. Row `n` of the result is `x n · w (ctx n) + b (ctx n)`.
Everything is stated on the extended reals, where the ideal float values live.
-/

noncomputable section

open scoped BigOperators

namespace Cert.Spec

open Idealize.ShloMosaic Idealize.ShloMosaic.ValueIdx

/-- The data matrix's shape, the label vector's, the parameter tables' and the prior vector's. -/
abbrev SX : Shape := ⟨2, ![131072, 512]⟩
abbrev SC : Shape := ⟨1, ![131072]⟩
abbrev ST : Shape := ⟨2, ![16, 512]⟩
abbrev SP : Shape := ⟨1, ![16]⟩

/-- Every label, read as a signed word, lies in `[0, 16)`. -/
def InRange (ctx : SC.Idx → BitVec 32) : Prop := ∀ n : Fin 131072, 0 ≤ (ctx (ix1 n)).toInt ∧ (ctx (ix1 n)).toInt < 16

/-- The context of row `n` (its label reduced into `[0, 16)`; the label itself when labels are in range). -/
def kOf (ctx : SC.Idx → BitVec 32) (n : Fin 131072) : Fin 16 :=
  ⟨(ctx (ix1 n)).toInt.toNat % 16, Nat.mod_lt _ (by decide)⟩

/-- The rows labelled `k`. -/
def rows (ctx : SC.Idx → BitVec 32) (k : Fin 16) : Finset (Fin 131072) :=
  Finset.univ.filter fun n => (ctx (ix1 n)).toInt = (k.val : Int)

/-- The rows labelled `k` in half `h` of the matrix (rows `[65536 h, 65536 (h + 1))`). -/
def rowsHalf (ctx : SC.Idx → BitVec 32) (h : Fin 2) (k : Fin 16) : Finset (Fin 131072) :=
  (rows ctx k).filter fun n => n.val / 65536 = h.val

/-- Half `h` of the rows: `[65536 h, 65536 (h + 1))`. -/
def half (h : Fin 2) : Finset (Fin 131072) := Finset.univ.filter fun n => n.val / 65536 = h.val

/-- A label word clamped into `[0, 15]` as a signed word. -/
def clip (cw : BitVec 32) : BitVec 32 := IntOp.minsi 15#32 (IntOp.maxsi 0#32 cw)

/-- The one-hot entry of a label word at context `k`: `1` when the clamped label is `k`, else `0`
    (the comparison's bit widened to a word and read as a signed integer). -/
def oh (cw : BitVec 32) (k : Fin 16) : EReal :=
  ((((IntOp.cmpi .eq (clip cw) (BitVec.ofNat 32 k.val)).setWidth 32).toInt : ℝ) : EReal)

/-- One entry of the second pass: the data entry times the one-hot selection of the two weight tables, summed,
    plus the one-hot selection of the two offset tables, summed; each selection a sum over the 16 contexts onto a
    zero accumulator. -/
def applyRow (xv : EReal) (cw : BitVec 32) (a2 a3 a4 a5 : Fin 16 → EReal) : EReal :=
  xv * ((0 + ∑ k : Fin 16, oh cw k * a2 k) + (0 + ∑ k : Fin 16, oh cw k * a3 k))
    + ((0 + ∑ k : Fin 16, oh cw k * a4 k) + (0 + ∑ k : Fin 16, oh cw k * a5 k))

/-- The regularising constant: the `f32` nearest `10⁻³`. -/
def eps : EReal := Ideal.ofBits .f32 0x3A83126F#32

section
variable (x : SX.Idx → EReal) (ctx : SC.Idx → BitVec 32) (γ β : ST.Idx → EReal) (p : SP.Idx → EReal)

/-- How many rows carry label `k`. -/
def cnt (k : Fin 16) : EReal := ((rows ctx k).card : EReal)
/-- Column `q` summed over the rows labelled `k`. -/
def s1 (k : Fin 16) (q : Fin 512) : EReal := ∑ n ∈ rows ctx k, x (ix2 n q)
/-- Column `q`'s squares summed over the rows labelled `k`. -/
def s2 (k : Fin 16) (q : Fin 512) : EReal := ∑ n ∈ rows ctx k, x (ix2 n q) * x (ix2 n q)

/-- The per-context weight and offset as functions of the count, the two sums, and the parameters at `(k, q)`:
    `w = γ · istd · p^(-1/2)`, `b = (β − γ · mean · istd) · p^(-1/2)`, with `mean = s1 / max(cnt, 1)`,
    `var = s2 / max(cnt, 1) − mean²`, `istd = (var + ε)^(-1/2)`. -/
def mean (c s1 : EReal) : EReal := Ideal.div s1 (max c 1)
def var (c s1 s2 : EReal) : EReal := Ideal.div s2 (max c 1) - mean c s1 * mean c s1
def istd (c s1 s2 : EReal) : EReal := Ideal.rsqrt (var c s1 s2 + eps)
def wOf (c s1 s2 g pk : EReal) : EReal := g * istd c s1 s2 * Ideal.rsqrt pk
def bOf (c s1 s2 g bt pk : EReal) : EReal := (bt - g * mean c s1 * istd c s1 s2) * Ideal.rsqrt pk

/-- The weight table. -/
def w (k : Fin 16) (q : Fin 512) : EReal :=
  wOf (cnt ctx k) (s1 x ctx k q) (s2 x ctx k q) (γ (ix2 k q)) (p (ix1 k))
/-- The offset table. -/
def b (k : Fin 16) (q : Fin 512) : EReal :=
  bOf (cnt ctx k) (s1 x ctx k q) (s2 x ctx k q) (γ (ix2 k q)) (β (ix2 k q)) (p (ix1 k))

/-- THE RESULT: row `n`, column `q` is `x · w (ctx n) + b (ctx n)`. -/
def out (i : SX.Idx) : EReal :=
  x i * w x ctx γ p (kOf ctx (i 0)) (i 1) + b x ctx γ β p (kOf ctx (i 0)) (i 1)

end

/-- With labels in range, row `n` is among the rows labelled `kOf n`. -/
theorem mem_rows_kOf {ctx : SC.Idx → BitVec 32} (h : InRange ctx) (n : Fin 131072) : n ∈ rows ctx (kOf ctx n) := by
  unfold rows kOf
  rw [Finset.mem_filter]
  refine ⟨Finset.mem_univ _, ?_⟩
  obtain ⟨h0, h1⟩ := h n
  show (ctx (ix1 n)).toInt = (((ctx (ix1 n)).toInt.toNat % 16 : Nat) : Int)
  omega

/-- With labels in range, the label of row `n` is `kOf n`. -/
theorem toInt_eq_kOf {ctx : SC.Idx → BitVec 32} (h : InRange ctx) (n : Fin 131072) :
    (ctx (ix1 n)).toInt = ((kOf ctx n).val : Int) := by
  have := mem_rows_kOf h n
  unfold rows at this
  exact (Finset.mem_filter.mp this).2

/-- The count of a context that has a row is at least one, so positive. -/
theorem cnt_pos_of_mem {ctx : SC.Idx → BitVec 32} {k : Fin 16} {n : Fin 131072} (h : n ∈ rows ctx k) : 0 < cnt ctx k := by
  unfold cnt
  have : 0 < (rows ctx k).card := Finset.card_pos.mpr ⟨n, h⟩
  exact_mod_cast this

end Cert.Spec

end
-- ==== Proof.ScatterCount.lean ====
import Idealize.ShloMosaic.PureOps.Ideal
import Idealize.ShloMosaic.Lib.ValueIdx
import proofs.«429366_j62783831933726_3_alg».proof.Proof.Spec

/-!
# Counting labels by an accumulating scatter

`zeros(16).at[labels].add(ones)`: update `n` lands on entry `k` exactly when label `n`, read as a signed word, is
`k` (a label outside `[0, 16)` lands nowhere). So entry `k` of the result is the operand's entry plus the sum of the
updates of the rows labelled `k`; with a zero operand and unit updates, the number of such rows.
-/

noncomputable section

open scoped BigOperators

namespace Cert.Scatter

open Idealize.ShloMosaic Idealize.ShloMosaic.ValueIdx

/-- The dimension numbers of a scatter of 131072 scalars into 16 entries by one index each. -/
def dCount : ScatterDims ⟨1, ![16]⟩ ⟨2, ![131072, 1]⟩ ⟨1, ![131072]⟩ :=
  { updateWindowDims := [], insertedWindowDims := [0], scatterDimsToOperandDims := [0], indexVectorDim := 1 }

/-- Update `j` starts at its own label, read signed. -/
theorem dCount_start (idx : IVec ⟨2, ![131072, 1]⟩ 32) (j : (⟨1, ![131072]⟩ : Shape).Idx) :
    dCount.start j idx 0 = (idx (ix2 (j 0) 0)).toInt := by
  unfold ScatterDims.start
  rw [dif_pos (show (0 : Fin 1) ∈ dCount.scatterDimsToOperandDims from List.mem_singleton.mpr rfl)]
  congr 2
  funext b
  refine Fin.ext ?_
  match b with
  | ⟨0, _⟩ => rfl
  | ⟨1, _⟩ => rfl

/-- The one operand axis is inserted: no window coordinate on it. -/
theorem dCount_window (j : (⟨1, ![131072]⟩ : Shape).Idx) : dCount.window j 0 = 0 := by
  unfold ScatterDims.window
  rw [dif_neg]
  decide

/-- Update `j` lands on entry `k` iff its label is `k`. -/
theorem dCount_resultIdx (idx : IVec ⟨2, ![131072, 1]⟩ 32) (j : (⟨1, ![131072]⟩ : Shape).Idx) (k : Fin 16) :
    dCount.resultIdx? j idx = some (ix1 k) ↔ (idx (ix2 (j 0) 0)).toInt = (k.val : Int) := by
  have hk := k.isLt
  unfold ScatterDims.resultIdx?
  split
  · rename_i h
    rw [Option.some.injEq]
    have h0 := h 0
    rw [dCount_start, dCount_window] at h0
    constructor
    · intro e
      have e0 := congrArg Fin.val (congrFun e 0)
      simp only [dCount_start, dCount_window] at e0
      have : ((ix1 k : (⟨1, ![16]⟩ : Shape).Idx) 0).val = k.val := rfl
      rw [this] at e0
      omega
    · intro e
      funext a
      obtain rfl : a = 0 := Subsingleton.elim _ _
      refine Fin.ext ?_
      show (dCount.start j idx 0 + dCount.window j 0).toNat = k.val
      rw [dCount_start, dCount_window, e]
      omega
  · rename_i h
    constructor
    · intro e; cases e
    · intro e
      exfalso; apply h
      intro a
      obtain rfl : a = 0 := Subsingleton.elim _ _
      rw [dCount_start, dCount_window, e]
      show (0 : Int) ≤ (k.val : Int) + ((0 : Nat) : Int) ∧ (k.val : Int) + ((0 : Nat) : Int) < ((16 : Nat) : Int)
      omega

/-- Entry `k` of the accumulating scatter: the operand's entry plus the updates of the rows labelled `k`. -/
theorem scatterAdd_count (x : (⟨1, ![16]⟩ : Shape).Idx → EReal) (idx : IVec ⟨2, ![131072, 1]⟩ 32)
    (upd : (⟨1, ![131072]⟩ : Shape).Idx → EReal) (k : Fin 16) :
    Ideal.hostScatterAdd dCount x idx upd (ix1 k)
      = x (ix1 k) + ∑ n ∈ Finset.univ.filter (fun n : Fin 131072 => (idx (ix2 n 0)).toInt = (k.val : Int)), upd (ix1 n) := by
  unfold Ideal.hostScatterAdd
  refine congrArg (x (ix1 k) + ·) ?_
  refine Finset.sum_nbij' (fun j => j 0) (fun n => ix1 n) ?_ ?_ ?_ ?_ ?_
  · intro j hj
    exact Finset.mem_filter.mpr ⟨Finset.mem_univ _, (dCount_resultIdx idx j k).mp (Finset.mem_filter.mp hj).2⟩
  · intro n hn
    exact Finset.mem_filter.mpr ⟨Finset.mem_univ _, (dCount_resultIdx idx (ix1 n) k).mpr (Finset.mem_filter.mp hn).2⟩
  · intro j _; exact (eq_ix1 j).symm
  · intro n _; rfl
  · intro j _; exact congrArg upd (eq_ix1 j)

/-- Zero operand, unit updates, the index column holding the labels: entry `k` is the number of rows labelled `k`. -/
theorem count_eq (ctx : Spec.SC.Idx → BitVec 32) (idx : IVec ⟨2, ![131072, 1]⟩ 32)
    (hidx : ∀ n : Fin 131072, idx (ix2 n 0) = ctx (ix1 n)) (k : Fin 16) :
    Ideal.hostScatterAdd dCount (fun _ => 0) idx (fun _ => 1) (ix1 k) = Spec.cnt ctx k := by
  rw [scatterAdd_count, zero_add, Finset.sum_const, nsmul_one]
  unfold Spec.cnt Spec.rows
  simp only [hidx]

end Cert.Scatter

end
-- ==== Proof.LabelIndexed.lean ====
import Idealize.ShloMosaic.PureOps.Ideal
import Idealize.ShloMosaic.Lib.ValueIdx

/-!
# Scatter-add and gather through a column of row labels

`N` rows carry one label each, held as an `[N × 1]` column of signed words. Two operations go through the column.

* The accumulating scatter of an `[N × M]` array of updates into a `[K × M]` table: update `(n, q)` lands on entry
  `(k, q)` exactly when the label of row `n`, read as a signed integer, is `k` (a label outside `[0, K)` lands nowhere).
  So entry `(k, q)` of the result is the operand's entry plus the sum, over the rows labelled `k`, of column `q`.
* The gather of rows of a `[K × M]` table: result entry `(n, q)` is the table at row "label of `n`, read signed and
  clamped into `[0, K − 1]`", column `q`.

Both are read off the operations' dimension numbers, which enter as hypotheses on the record's fields.
-/

noncomputable section

open scoped BigOperators

namespace Cert.LabelIndexed

open Idealize.ShloMosaic Idealize.ShloMosaic.ValueIdx

variable {K N M w : Nat}

/-- Row `n` of an `[N × 1]` column of labels. -/
abbrev col (n : Fin N) : (⟨2, ![N, 1]⟩ : Shape).Idx := ix2 n (0 : Fin 1)

/-- The only entry of a one-element list. -/
theorem getElem_of_eq_singleton {α : Type} {l : List α} {x : α} (h : l = [x]) (k : Nat) (hk : k < l.length) :
    l[k] = x := by
  subst h
  have hk0 : k = 0 := by simpa using hk
  subst hk0
  rfl

/-! ## The scatter of rows -/

/-- On the table's row axis an update starts at its row's label, read signed; on the column axis at `0`. -/
theorem start_rows (d : ScatterDims ⟨2, ![K, M]⟩ ⟨2, ![N, 1]⟩ ⟨2, ![N, M]⟩)
    (huw : d.updateWindowDims = [1]) (hsd : d.scatterDimsToOperandDims = [0]) (hiv : d.indexVectorDim = 1)
    (idx : IVec ⟨2, ![N, 1]⟩ w) (j : (⟨2, ![N, M]⟩ : Shape).Idx) :
    d.start j idx 0 = (idx (col (j 0))).toInt ∧ d.start j idx 1 = 0 := by
  have hm : (0 : Fin 2) ∈ d.scatterDimsToOperandDims := by rw [hsd]; exact List.mem_singleton.mpr rfl
  have hn : (1 : Fin 2) ∉ d.scatterDimsToOperandDims := by
    rw [hsd]; show (1 : Fin 2) ∉ [(0 : Fin 2)]; decide
  have hus : d.uScatter = [0] := by show Shape.kept _ d.updateWindowDims = [0]; rw [huw]; rfl
  refine ⟨?_, ?_⟩
  · unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      rw [getElem_of_eq_singleton hus]
    | ⟨1, _⟩ =>
      unfold ScatterDims.siIdx
      rw [dif_pos (by rw [hiv])]
      apply Fin.ext
      show List.idxOf (0 : Fin 2) d.scatterDimsToOperandDims = 0
      rw [hsd]; simp
  · unfold ScatterDims.start
    rw [dif_neg hn]

/-- The row axis is inserted (no window coordinate); the column axis carries the update's column. -/
theorem window_rows (d : ScatterDims ⟨2, ![K, M]⟩ ⟨2, ![N, 1]⟩ ⟨2, ![N, M]⟩)
    (huw : d.updateWindowDims = [1]) (hiw : d.insertedWindowDims = [0]) (j : (⟨2, ![N, M]⟩ : Shape).Idx) :
    d.window j 0 = 0 ∧ d.window j 1 = (j 1).val := by
  have hsk : d.sKept = [1] := by show Shape.kept _ d.insertedWindowDims = [1]; rw [hiw]; rfl
  refine ⟨?_, ?_⟩
  · unfold ScatterDims.window
    rw [dif_neg (by rw [hsk]; show (0 : Fin 2) ∉ [(1 : Fin 2)]; decide)]
  · unfold ScatterDims.window
    rw [dif_pos (by rw [hsk]; exact List.mem_singleton.mpr rfl)]
    rw [getElem_of_eq_singleton huw]

/-- Update `j` lands on entry `i` iff the label of `j`'s row is `i`'s row and the columns agree. -/
theorem resultIdx_rows (d : ScatterDims ⟨2, ![K, M]⟩ ⟨2, ![N, 1]⟩ ⟨2, ![N, M]⟩)
    (huw : d.updateWindowDims = [1]) (hiw : d.insertedWindowDims = [0]) (hsd : d.scatterDimsToOperandDims = [0])
    (hiv : d.indexVectorDim = 1) (idx : IVec ⟨2, ![N, 1]⟩ w) (j : (⟨2, ![N, M]⟩ : Shape).Idx)
    (i : (⟨2, ![K, M]⟩ : Shape).Idx) :
    d.resultIdx? j idx = some i ↔ (idx (col (j 0))).toInt = ((i 0).val : Int) ∧ (j 1).val = (i 1).val := by
  obtain ⟨hs0, hs1⟩ := start_rows d huw hsd hiv idx j
  obtain ⟨hw0, hw1⟩ := window_rows d huw hiw j
  have hi0 : (i 0).val < K := (i 0).isLt
  have hi1 : (i 1).val < M := (i 1).isLt
  have hj1 : (j 1).val < M := (j 1).isLt
  unfold ScatterDims.resultIdx?
  split
  · rename_i h
    rw [Option.some.injEq]
    have h0 := h 0
    rw [hs0, hw0] at h0
    constructor
    · intro e
      have e0 : (d.start j idx 0 + d.window j 0).toNat = (i 0).val := congrArg Fin.val (congrFun e 0)
      have e1 : (d.start j idx 1 + d.window j 1).toNat = (i 1).val := congrArg Fin.val (congrFun e 1)
      rw [hs0, hw0] at e0
      rw [hs1, hw1] at e1
      constructor <;> omega
    · rintro ⟨e0, e1⟩
      funext a
      match a with
      | ⟨0, _⟩ =>
        refine Fin.ext ?_
        show (d.start j idx 0 + d.window j 0).toNat = (i 0).val
        rw [hs0, hw0]; omega
      | ⟨1, _⟩ =>
        refine Fin.ext ?_
        show (d.start j idx 1 + d.window j 1).toNat = (i 1).val
        rw [hs1, hw1]; omega
  · rename_i h
    constructor
    · intro e; cases e
    · rintro ⟨e0, e1⟩
      exfalso; apply h
      intro a
      match a with
      | ⟨0, _⟩ =>
        show 0 ≤ d.start j idx 0 + d.window j 0 ∧ d.start j idx 0 + d.window j 0 < ((K : Nat) : Int)
        rw [hs0, hw0]; omega
      | ⟨1, _⟩ =>
        show 0 ≤ d.start j idx 1 + d.window j 1 ∧ d.start j idx 1 + d.window j 1 < ((M : Nat) : Int)
        rw [hs1, hw1]; omega

/-- Entry `(k, q)` of the accumulating scatter of rows: the operand's entry plus column `q` of the update rows
    labelled `k`. -/
theorem scatterAdd_rows (d : ScatterDims ⟨2, ![K, M]⟩ ⟨2, ![N, 1]⟩ ⟨2, ![N, M]⟩)
    (huw : d.updateWindowDims = [1]) (hiw : d.insertedWindowDims = [0]) (hsd : d.scatterDimsToOperandDims = [0])
    (hiv : d.indexVectorDim = 1) (x : (⟨2, ![K, M]⟩ : Shape).Idx → EReal) (idx : IVec ⟨2, ![N, 1]⟩ w)
    (upd : (⟨2, ![N, M]⟩ : Shape).Idx → EReal) (k : Fin K) (q : Fin M) :
    Ideal.hostScatterAdd d x idx upd (ix2 k q)
      = x (ix2 k q) + ∑ n ∈ Finset.univ.filter (fun n : Fin N => (idx (col n)).toInt = (k.val : Int)), upd (ix2 n q) := by
  unfold Ideal.hostScatterAdd
  refine congrArg (x (ix2 k q) + ·) ?_
  have hback : ∀ j : (⟨2, ![N, M]⟩ : Shape).Idx, (j 1).val = q.val → ix2 (j 0) q = j := fun j hj => by
    funext a
    match a with
    | ⟨0, _⟩ => rfl
    | ⟨1, _⟩ => exact Fin.ext hj.symm
  refine Finset.sum_nbij' (fun j => j 0) (fun n => ix2 n q) ?_ ?_ ?_ ?_ ?_
  · intro j hj
    exact Finset.mem_filter.mpr ⟨Finset.mem_univ _,
      ((resultIdx_rows d huw hiw hsd hiv idx j (ix2 k q)).mp (Finset.mem_filter.mp hj).2).1⟩
  · intro n hn
    exact Finset.mem_filter.mpr ⟨Finset.mem_univ _,
      (resultIdx_rows d huw hiw hsd hiv idx (ix2 n q) (ix2 k q)).mpr ⟨(Finset.mem_filter.mp hn).2, rfl⟩⟩
  · intro j hj
    exact hback j ((resultIdx_rows d huw hiw hsd hiv idx j (ix2 k q)).mp (Finset.mem_filter.mp hj).2).2
  · intro n _; rfl
  · intro j hj
    exact (congrArg upd (hback j ((resultIdx_rows d huw hiw hsd hiv idx j (ix2 k q)).mp (Finset.mem_filter.mp hj).2).2)).symm

/-! ## The gather of rows -/

/-- A gather of table rows by a column of labels reads, at `(n, q)`, the table at row "label of `n`, read signed and
    clamped into `[0, K − 1]`", column `q`. -/
theorem gather_rows {α : Type} (d : GatherDims ⟨2, ![K, M]⟩ ⟨2, ![N, 1]⟩ ⟨2, ![N, M]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, M]⟩ : Shape).Idx → α) (idx : IVec ⟨2, ![N, 1]⟩ w) (j : (⟨2, ![N, M]⟩ : Shape).Idx) :
    Host.gather d x idx j = x (ix2 ⟨min (idx (col (j 0))).toInt.toNat (K - 1), by omega⟩ (j 1)) := by
  unfold Host.gather
  congr 1
  funext a
  have hb : ∀ a, a ∉ d.operandBatchingDims := fun a => by rw [hob]; exact List.not_mem_nil
  have hsk : d.sKept = [1] := by
    show Shape.kept _ (d.collapsedSliceDims ++ d.operandBatchingDims) = [1]
    rw [hcoll, hob]; rfl
  have hbd : d.batchDims = [0] := by show Shape.kept _ d.offsetDims = [0]; rw [hoff]; rfl
  match a with
  | ⟨0, _⟩ =>
    refine Fin.ext ?_
    show d.start j idx 0 + d.batchCoord j 0 + d.offCoord j 0 = min (idx (col (j 0))).toInt.toNat (K - 1)
    have hm : (0 : Fin 2) ∈ d.startIndexMap := by rw [hsim]; exact List.mem_singleton.mpr rfl
    have hk : (0 : Fin 2) ∉ d.sKept := by rw [hsk]; show (0 : Fin 2) ∉ [(1 : Fin 2)]; decide
    have hsl : d.sliceSizes 0 = 1 := d.slice_collapsed 0 (by rw [hcoll]; exact List.mem_singleton.mpr rfl)
    rw [GatherDims.batchCoord_eq_zero _ _ _ (hb 0), GatherDims.offCoord_eq_zero _ _ _ hk]
    simp only [Nat.add_zero]
    unfold GatherDims.start
    rw [dif_pos hm, hsl]
    refine congrArg (fun t => min (idx t).toInt.toNat (K - 1)) ?_
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    refine Fin.ext ?_
    show d.start j idx 1 + d.batchCoord j 1 + d.offCoord j 1 = (j 1).val
    have hn : (1 : Fin 2) ∉ d.startIndexMap := by rw [hsim]; show (1 : Fin 2) ∉ [(0 : Fin 2)]; decide
    have hk : (1 : Fin 2) ∈ d.sKept := by rw [hsk]; exact List.mem_singleton.mpr rfl
    rw [GatherDims.batchCoord_eq_zero _ _ _ (hb 1), Nat.add_zero]
    unfold GatherDims.start GatherDims.offCoord
    rw [dif_neg hn, dif_pos hk, Nat.zero_add, getElem_of_eq_singleton hoff]

/-! ## A label in range is its own wrapped and clamped form -/

/-- The wrap `select (l < 0) (l + K) l` of a label that is not negative is the label. -/
theorem wrap_of_nonneg (l b : BitVec 32) (h : 0 ≤ l.toInt) : Scalar.select (IntOp.cmpi .slt l 0#32) b l = l := by
  have hlt : l.slt 0#32 = false := by
    simp only [BitVec.slt, BitVec.toInt_zero, decide_eq_false_iff_not, Int.not_lt]
    exact h
  show (if BitVec.ofBool (l.slt 0#32) = 1 then _ else _) = _
  rw [hlt]
  rfl

end Cert.LabelIndexed

end
-- ==== Proof.RefValue.lean ====
import proofs.«429366_j62783831933726_3_alg».proof.Proof.RefRead
import proofs.«429366_j62783831933726_3_alg».proof.Proof.Spec
import proofs.«429366_j62783831933726_3_alg».proof.Proof.ScatterCount
import proofs.«429366_j62783831933726_3_alg».proof.Proof.LabelIndexed
import Idealize.ShloMosaic.Lib.ValueIdx
import Idealize.ShloMosaic.Lib.Pipeline.Value
import Idealize.ShloMosaic.Lib.StableHlo.Predicate
import Idealize.ShloMosaic.PureOps.Ideal.Laws

/-!
# The reference computes `Spec.out`

With every label in `[0, 16)`: the three accumulating scatters are the count, the column sums and the column sums
of squares over the rows of each label; the gathers read the tables at the row's label; the row's context is then
present (it has at least that row), so the final selection takes the normalised value.
-/

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

open Cert.ReferenceIdeal.ReadP Cert.LabelIndexed

section Stages

variable (x0 : (⟨S131072x512, .f32⟩ : BufTy).Contents (Elt Ideal)) (x1 : (⟨S131072, .i32⟩ : BufTy).Contents (Elt Ideal))
  (x2 x3 : (⟨S16x512, .f32⟩ : BufTy).Contents (Elt Ideal)) (x4 : (⟨S16, .f32⟩ : BufTy).Contents (Elt Ideal))

/-! ## The label column -/

/-- The labels laid out as a column read, at row `n`, label `n` (the count scatter's indices). -/
theorem labels_col4 (n : Fin 131072) : val_main_v4 (F := Ideal) x1 (col n) = x1 (ix1 n) := by
  rw [val_main_v4_apply]
  exact congrArg x1 (funext fun a => match a with | ⟨0, _⟩ => rfl)

/-- The same column as the indices of the scatter of rows. -/
theorem labels_col10 (n : Fin 131072) : val_main_v10 (F := Ideal) x1 (col n) = x1 (ix1 n) := by
  rw [val_main_v10_apply]
  exact congrArg x1 (funext fun a => match a with | ⟨0, _⟩ => rfl)

/-- The same column as the indices of the scatter of squared rows. -/
theorem labels_col14 (n : Fin 131072) : val_main_v14 (F := Ideal) x1 (col n) = x1 (ix1 n) := by
  rw [val_main_v14_apply]
  exact congrArg x1 (funext fun a => match a with | ⟨0, _⟩ => rfl)

/-- The wrapped label `select (l < 0) (l + 16) l` of a row whose label is not negative is the label: the weight
    gather's index column. -/
theorem wrapped_col40 (hctx : Spec.InRange x1) (n : Fin 131072) : val_main_v40 (F := Ideal) x1 (col n) = x1 (ix1 n) := by
  have e : idx_main_v40 (col n) = ix1 n := funext fun a => match a with | ⟨0, _⟩ => rfl
  rw [val_main_v40_apply, e, val_main_v39_apply, val_main_v36_apply, val_main_v35_apply, val_main_c_apply]
  exact wrap_of_nonneg _ _ (hctx n).1

/-- The offset gather's index column, the same wrapped label. -/
theorem wrapped_col48 (hctx : Spec.InRange x1) (n : Fin 131072) : val_main_v48 (F := Ideal) x1 (col n) = x1 (ix1 n) := by
  have e : idx_main_v48 (col n) = ix1 n := funext fun a => match a with | ⟨0, _⟩ => rfl
  rw [val_main_v48_apply, e, val_main_v47_apply, val_main_v44_apply, val_main_v43_apply, val_main_c_6_apply]
  exact wrap_of_nonneg _ _ (hctx n).1

/-- The presence gather's index column, the same wrapped label. -/
theorem wrapped_col58 (hctx : Spec.InRange x1) (n : Fin 131072) : val_main_v58 (F := Ideal) x1 (col n) = x1 (ix1 n) := by
  have e : idx_main_v58 (col n) = ix1 n := funext fun a => match a with | ⟨0, _⟩ => rfl
  rw [val_main_v58_apply, e, val_main_v57_apply, val_main_v54_apply, val_main_v53_apply, val_main_c_9_apply]
  exact wrap_of_nonneg _ _ (hctx n).1

/-- A label in `[0, 16)`, read signed and clamped into `[0, 15]`, is the row's context. -/
theorem clamp_eq_kOf (hctx : Spec.InRange x1) (n : Fin 131072) :
    min (x1 (ix1 n)).toInt.toNat (16 - 1) = (Spec.kOf x1 n).val := by
  have h := hctx n
  show min (x1 (ix1 n)).toInt.toNat (16 - 1) = (x1 (ix1 n)).toInt.toNat % 16
  omega

/-! ## The three accumulating scatters -/

/-- The count scatter: a zero table plus one per row, entry `k` the number of rows labelled `k`. -/
theorem count5 (k : Fin 16) : val_main_v5 (F := Ideal) x1 (ix1 k) = Spec.cnt x1 k := by
  have h3 : val_main_v3 (F := Ideal) = fun _ => (0 : EReal) := by
    funext i; rw [val_main_v3_apply, val_main_cst_0_apply]; exact Ideal.ofBits_zero_f32
  have h2 : val_main_v2 (F := Ideal) = fun _ => (1 : EReal) := by
    funext i; rw [val_main_v2_apply, val_main_cst_apply]; exact Cert.Lib.ofBits_f32_one
  unfold val_main_v5
  rw [h3, h2]
  exact Cert.Scatter.count_eq x1 (val_main_v4 (F := Ideal) x1) (labels_col4 x1) k

/-- The scatter of the rows: entry `(k, q)` is column `q` summed over the rows labelled `k`. -/
theorem sums11 (k : Fin 16) (q : Fin 512) : val_main_v11 (F := Ideal) x0 x1 (ix2 k q) = Spec.s1 x0 x1 k q := by
  have h9 : val_main_v9 (F := Ideal) = fun _ => (0 : EReal) := by
    funext i; rw [val_main_v9_apply, val_main_cst_2_apply]; exact Ideal.ofBits_zero_f32
  unfold val_main_v11
  show Ideal.hostScatterAdd scatter_S16x512_S131072x1_S131072x512_1_0_0_1 _ _ _ _ = _
  rw [scatterAdd_rows scatter_S16x512_S131072x1_S131072x512_1_0_0_1 rfl rfl rfl rfl, h9, zero_add]
  unfold Spec.s1 Spec.rows
  simp only [labels_col10]

/-- The scatter of the squared rows: entry `(k, q)` is column `q`'s squares summed over the rows labelled `k`. -/
theorem sums15 (k : Fin 16) (q : Fin 512) : val_main_v15 (F := Ideal) x0 x1 (ix2 k q) = Spec.s2 x0 x1 k q := by
  have h13 : val_main_v13 (F := Ideal) = fun _ => (0 : EReal) := by
    funext i; rw [val_main_v13_apply, val_main_cst_3_apply]; exact Ideal.ofBits_zero_f32
  unfold val_main_v15
  show Ideal.hostScatterAdd scatter_S16x512_S131072x1_S131072x512_1_0_0_1 _ _ _ _ = _
  rw [scatterAdd_rows scatter_S16x512_S131072x1_S131072x512_1_0_0_1 rfl rfl rfl rfl, h13, zero_add]
  unfold Spec.s2 Spec.rows
  simp only [labels_col14, val_main_v12_apply, Ideal.mulf_def]

/-! ## The per-context tables -/

/-- The divisor `max(count, 1)`, spread along the columns (the mean's). -/
theorem maxcount16 (k : Fin 16) (q : Fin 512) : val_main_v16 (F := Ideal) x1 (ix2 k q) = max (Spec.cnt x1 k) 1 := by
  have e : idx_main_v8 (idx_main_v16 (ix2 k q)) = ix1 k := funext fun a => match a with | ⟨0, _⟩ => rfl
  rw [val_main_v16_apply, val_main_v8_apply, e, val_main_v7_apply, count5, val_main_v6_apply, val_main_cst_1_apply]
  show max _ (Ideal.ofBits .f32 0x3F800000#32) = _
  rw [Cert.Lib.ofBits_f32_one]

/-- The same divisor (the mean square's). -/
theorem maxcount18 (k : Fin 16) (q : Fin 512) : val_main_v18 (F := Ideal) x1 (ix2 k q) = max (Spec.cnt x1 k) 1 := by
  have e : idx_main_v8 (idx_main_v18 (ix2 k q)) = ix1 k := funext fun a => match a with | ⟨0, _⟩ => rfl
  rw [val_main_v18_apply, val_main_v8_apply, e, val_main_v7_apply, count5, val_main_v6_apply, val_main_cst_1_apply]
  show max _ (Ideal.ofBits .f32 0x3F800000#32) = _
  rw [Cert.Lib.ofBits_f32_one]

/-- The mean table. -/
theorem mean17 (k : Fin 16) (q : Fin 512) :
    val_main_v17 (F := Ideal) x0 x1 (ix2 k q) = Spec.mean (Spec.cnt x1 k) (Spec.s1 x0 x1 k q) := by
  rw [val_main_v17_apply, sums11, maxcount16]
  rfl

/-- The variance table: the mean square less the squared mean. -/
theorem var21 (k : Fin 16) (q : Fin 512) :
    val_main_v21 (F := Ideal) x0 x1 (ix2 k q) = Spec.var (Spec.cnt x1 k) (Spec.s1 x0 x1 k q) (Spec.s2 x0 x1 k q) := by
  rw [val_main_v21_apply, val_main_v19_apply, sums15, maxcount18, val_main_v20_apply, mean17]
  rfl

/-- The reciprocal standard deviation table. -/
theorem istd24 (k : Fin 16) (q : Fin 512) :
    val_main_v24 (F := Ideal) x0 x1 (ix2 k q) = Spec.istd (Spec.cnt x1 k) (Spec.s1 x0 x1 k q) (Spec.s2 x0 x1 k q) := by
  rw [val_main_v24_apply, val_main_v23_apply, var21, val_main_v22_apply, val_main_cst_4_apply]
  rfl

/-- The prior's reciprocal square root, spread along the columns (the weight's factor). -/
theorem prior28 (k : Fin 16) (q : Fin 512) : val_main_v28 (F := Ideal) x4 (ix2 k q) = Ideal.rsqrt (x4 (ix1 k)) := by
  have e : idx_main_v26 (idx_main_v28 (ix2 k q)) = ix1 k := funext fun a => match a with | ⟨0, _⟩ => rfl
  rw [val_main_v28_apply, val_main_v26_apply, e, val_main_v25_apply]
  rfl

/-- The same factor (the offset's). -/
theorem prior33 (k : Fin 16) (q : Fin 512) : val_main_v33 (F := Ideal) x4 (ix2 k q) = Ideal.rsqrt (x4 (ix1 k)) := by
  have e : idx_main_v26 (idx_main_v33 (ix2 k q)) = ix1 k := funext fun a => match a with | ⟨0, _⟩ => rfl
  rw [val_main_v33_apply, val_main_v26_apply, e, val_main_v25_apply]
  rfl

/-- The weight table `γ · istd · p^(-1/2)`. -/
theorem weight29 (k : Fin 16) (q : Fin 512) :
    val_main_v29 (F := Ideal) x0 x1 x2 x4 (ix2 k q) = Spec.w x0 x1 x2 x4 k q := by
  rw [val_main_v29_apply, val_main_v27_apply, istd24, prior28]
  rfl

/-- The offset table `(β − γ · mean · istd) · p^(-1/2)`. -/
theorem offset34 (k : Fin 16) (q : Fin 512) :
    val_main_v34 (F := Ideal) x0 x1 x2 x3 x4 (ix2 k q) = Spec.b x0 x1 x2 x3 x4 k q := by
  rw [val_main_v34_apply, val_main_v32_apply, val_main_v31_apply, val_main_v30_apply, mean17, istd24, prior33]
  rfl

/-! ## The three gathers -/

/-- The weight gathered at row `n`: the weight table at the row's context. -/
theorem gathered41 (hctx : Spec.InRange x1) (n : Fin 131072) (q : Fin 512) :
    val_main_v41 (F := Ideal) x0 x1 x2 x4 (ix2 n q) = Spec.w x0 x1 x2 x4 (Spec.kOf x1 n) q := by
  unfold val_main_v41
  rw [gather_rows gather_S16x512_S131072x1_S131072x512_1_0_n_n_0_1_1512 rfl rfl rfl rfl rfl (by decide), ← weight29]
  refine congrArg (val_main_v29 (F := Ideal) x0 x1 x2 x4) ?_
  funext a
  match a with
  | ⟨0, _⟩ =>
    refine Fin.ext ?_
    show min (val_main_v40 (F := Ideal) x1 (col n)).toInt.toNat (16 - 1) = (Spec.kOf x1 n).val
    rw [wrapped_col40 x1 hctx n]
    exact clamp_eq_kOf x1 hctx n
  | ⟨1, _⟩ => rfl

/-- The offset gathered at row `n`: the offset table at the row's context. -/
theorem gathered49 (hctx : Spec.InRange x1) (n : Fin 131072) (q : Fin 512) :
    val_main_v49 (F := Ideal) x0 x1 x2 x3 x4 (ix2 n q) = Spec.b x0 x1 x2 x3 x4 (Spec.kOf x1 n) q := by
  unfold val_main_v49
  rw [gather_rows gather_S16x512_S131072x1_S131072x512_1_0_n_n_0_1_1512 rfl rfl rfl rfl rfl (by decide), ← offset34]
  refine congrArg (val_main_v34 (F := Ideal) x0 x1 x2 x3 x4) ?_
  funext a
  match a with
  | ⟨0, _⟩ =>
    refine Fin.ext ?_
    show min (val_main_v48 (F := Ideal) x1 (col n)).toInt.toNat (16 - 1) = (Spec.kOf x1 n).val
    rw [wrapped_col48 x1 hctx n]
    exact clamp_eq_kOf x1 hctx n
  | ⟨1, _⟩ => rfl

/-- The presence bit gathered at row `n` is set: the row's context has at least that row, so its count is
    positive. -/
theorem present59 (hctx : Spec.InRange x1) (n : Fin 131072) : val_main_v59 (F := Ideal) x1 (ix1 n) = 1#1 := by
  have e : (ix1 n : S131072.Idx) = Shape.Idx.ofFin n := funext fun a => match a with | ⟨0, _⟩ => rfl
  have ec : StableHlo.Predicate.ixP n = col n := funext fun a => match a with | ⟨0, _⟩ => rfl | ⟨1, _⟩ => rfl
  unfold val_main_v59
  rw [e, StableHlo.Predicate.gather_take gather_S16_S131072x1_S131072_n_0_n_n_0_1_1 rfl rfl rfl rfl _ _ n (by decide)]
  refine (congrArg (val_main_v52 (F := Ideal) x1) (?_ : _ = ix1 (Spec.kOf x1 n))).trans ?_
  · funext a
    match a with
    | ⟨0, _⟩ =>
      refine Fin.ext ?_
      show min (val_main_v58 (F := Ideal) x1 (StableHlo.Predicate.ixP n)).toInt.toNat (16 - 1) = (Spec.kOf x1 n).val
      rw [ec, wrapped_col58 x1 hctx n]
      exact clamp_eq_kOf x1 hctx n
  · rw [val_main_v52_apply, count5, val_main_v51_apply, val_main_cst_8_apply]
    show Ideal.cmp .ogt (Spec.cnt x1 (Spec.kOf x1 n)) (Ideal.ofBits .f32 0x00000000#32) = 1#1
    rw [Ideal.ofBits_zero_f32]
    show BitVec.ofBool (decide ((0 : EReal) < Spec.cnt x1 (Spec.kOf x1 n))) = 1#1
    rw [decide_eq_true (Spec.cnt_pos_of_mem (Spec.mem_rows_kOf hctx n))]
    rfl

/-! ## The result -/

/-- Entry `(n, q)` of the reference's result: the data entry times the weight plus the offset, at the row's context. -/
theorem result_at (hctx : Spec.InRange x1) (n : Fin 131072) (q : Fin 512) :
    val_main_v61 (F := Ideal) x0 x1 x2 x3 x4 (ix2 n q) = Spec.out x0 x1 x2 x3 x4 (ix2 n q) := by
  have e : idx_main_v60 (idx_main_call0_v0 (ix2 n q)) = ix1 n := funext fun a => match a with | ⟨0, _⟩ => rfl
  rw [val_main_v61_apply, val_main_call0_v0_apply, val_main_v60_apply, e, present59 x1 hctx n, select_one,
    val_main_v50_apply, val_main_v42_apply, gathered41 x0 x1 x2 x4 hctx n q, gathered49 x0 x1 x2 x3 x4 hctx n q]
  rfl

end Stages

theorem result (m : (ℓ : Loc nD τ sig) → Buf (Elt Ideal) ℓ) (c : Dev nD)
    (hctx : Spec.InRange (m ((c.tc : Thread nD τ).loc main_arg1) : S131072.Idx → BitVec 32)) :
    (Cert.ReferenceIdeal.ValueP.res_out0 (F := Ideal) m c : S131072x512.Idx → EReal)
      = Spec.out (m ((c.tc : Thread nD τ).loc main_arg0) : S131072x512.Idx → EReal)
          (m ((c.tc : Thread nD τ).loc main_arg1) : S131072.Idx → BitVec 32)
          (m ((c.tc : Thread nD τ).loc main_arg2) : S16x512.Idx → EReal)
          (m ((c.tc : Thread nD τ).loc main_arg3) : S16x512.Idx → EReal)
          (m ((c.tc : Thread nD τ).loc main_arg4) : S16.Idx → EReal) := by
  refine (ReadP.val_main_v61_eq (F := Ideal) m c).trans ?_
  funext i
  obtain ⟨n, q, rfl⟩ : ∃ (n : Fin 131072) (q : Fin 512), i = ix2 n q := ⟨i 0, i 1, eq_ix2 i⟩
  exact result_at _ _ _ _ _ hctx n q

end Cert.ReferenceIdeal.RefValue

end
-- ==== Proof.PreFacts.lean ====
import proofs.«429366_j62783831933726_3_alg».proof.Pre_finite_inputs
import proofs.«429366_j62783831933726_3_alg».proof.Proof.Gen.Pre_finite_inputs
import proofs.«429366_j62783831933726_3_alg».proof.Proof.Spec
import Idealize.ShloMosaic.Lib.ValueIdx
import Idealize.ShloMosaic.Lib.ReduceAll
import Idealize.ShloMosaic.Lib.StableHlo.Predicate

/-!
# What the precondition says of the inputs

The precondition is a conjunction of seven "all entries satisfy" tests: the four float inputs are finite
(`|·| < +∞`), every label is `≥ 0` and `< 16` as a signed word, and every prior is `> 0`. Read back: the float
inputs are real numbers, the labels are in range, the priors are positive.

Each test is a conjunction over all entries of an array of one-bit words, so its being `1` gives the bit `1` at
every entry; the bit at an entry is a comparison of that entry with a constant, and the comparison being `1`
is the inequality it tests.
-/

noncomputable section

namespace Cert.PreFacts

open Idealize.ShloMosaic Idealize.ShloMosaic.ValueIdx Cert.Lib

/-- The scalar shape has exactly one index: there is no axis to choose a coordinate on. -/
instance : Subsingleton Cert.Pre_finite_inputs.S_.Idx := ⟨fun a b => funext fun d => d.elim0⟩

/-- The `f32` pattern `0x7F800000` (sign clear, exponent all ones, significand zero) denotes `+∞`. -/
theorem ofBits_f32_inf : Ideal.ofBits .f32 0x7F800000#32 = ⊤ := by simp [Ideal.ofBits, Ideal.ieee]

/-- The finiteness test read at one entry: if `|v i| < +∞` came out `1`, where `+∞` is the constant spread
    over the whole shape, then `v i` is a real number. -/
theorem isReal_of_test {S : Shape} (bc : Cert.Pre_finite_inputs.S_.BroadcastsInDim S (![] : Fin 0 → Fin S.rank))
    (v : S.Idx → EReal) (i : S.Idx)
    (e : cmpf (F := Ideal) .olt (Host.absf v)
        (broadcastInDim S ![] bc (constant Cert.Pre_finite_inputs.S_ .f32 0x7F800000#32)) i = 1#1) :
    IsReal (v i) := by
  have e' : Ideal.cmp .olt (Max.max (v i) (-(v i))) (Ideal.ofBits .f32 0x7F800000#32) = 1#1 := e
  rw [ofBits_f32_inf] at e'
  simp only [Ideal.cmp, StableHlo.Predicate.ofBool_eq_one_iff, decide_eq_true_eq] at e'
  exact isReal_of_abs_lt_top e'

/-- The positivity test read at one entry: if `v i > 0` came out `1`, where `0` is the constant spread over
    the whole shape, then `0 < v i`. -/
theorem pos_of_test {S : Shape} (bc : Cert.Pre_finite_inputs.S_.BroadcastsInDim S (![] : Fin 0 → Fin S.rank))
    (v : S.Idx → EReal) (i : S.Idx)
    (e : cmpf (F := Ideal) .ogt v
        (broadcastInDim S ![] bc (constant Cert.Pre_finite_inputs.S_ .f32 0x00000000#32)) i = 1#1) :
    0 < v i := by
  have e' : Ideal.cmp .ogt (v i) (Ideal.ofBits .f32 0x00000000#32) = 1#1 := e
  rw [Ideal.ofBits_zero_f32] at e'
  simpa only [Ideal.cmp, StableHlo.Predicate.ofBool_eq_one_iff, decide_eq_true_eq] using e'

theorem of_pre [Cert.Pre_finite_inputs.Facts]
    (x : Spec.SX.Idx → EReal) (ctx : Spec.SC.Idx → BitVec 32) (g bt : Spec.ST.Idx → EReal) (p : Spec.SP.Idx → EReal)
    (h : Cert.Pre_finite_inputs.fn (F := Ideal) x ctx g bt p = fun _ => 1#1) :
    (∀ i, IsReal (x i)) ∧ (∀ i, IsReal (g i)) ∧ (∀ i, IsReal (bt i)) ∧ (∀ i, IsReal (p i))
      ∧ Spec.InRange ctx ∧ (∀ i, 0 < p i) := by
  -- the one entry of the scalar result, written out as the conjunction of the seven tests
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨⟨⟨hx, hg⟩, hb⟩, hp⟩, hge⟩, hlt⟩, hpos⟩ := h0
  refine ⟨fun i => ?_, fun i => ?_, fun i => ?_, fun i => ?_, fun n => ⟨?_, ?_⟩, fun i => ?_⟩
  · exact isReal_of_test _ x i (Host.reduce_andi_all _ _ _ _ _ hx i)
  · exact isReal_of_test _ g i (Host.reduce_andi_all _ _ _ _ _ hg i)
  · exact isReal_of_test _ bt i (Host.reduce_andi_all _ _ _ _ _ hb i)
  · exact isReal_of_test _ p i (Host.reduce_andi_all _ _ _ _ _ hp i)
  · -- the label at row `n` tested `≥` the zero word, read signed
    have e : IntOp.cmpi .sge (ctx (ix1 n)) 0#32 = 1#1 := Host.reduce_andi_all _ _ _ _ _ hge (ix1 n)
    have := IntOp.cmpi_sge.1 e
    rwa [show (0#32 : BitVec 32).toInt = 0 from by decide] at this
  · -- the label at row `n` tested `<` the word sixteen, read signed
    have e : IntOp.cmpi .slt (ctx (ix1 n)) 16#32 = 1#1 := Host.reduce_andi_all _ _ _ _ _ hlt (ix1 n)
    have := IntOp.cmpi_slt.1 e
    rwa [show (16#32 : BitVec 32).toInt = 16 from by decide] at this
  · exact pos_of_test _ p i (Host.reduce_andi_all _ _ _ _ _ hpos i)

end Cert.PreFacts

end
-- ==== Proof.OneHot.lean ====
import proofs.«429366_j62783831933726_3_alg».proof.Proof.Spec

/-!
# The one-hot row of a label

For a label in `[0, 16)` clamping changes nothing, and the one-hot entry at context `k` is `1` when the label is `k`
and `0` otherwise. A one-hot-weighted sum over the 16 contexts therefore selects the term at the label, whatever
extended reals the other terms are (`0 · a = 0` also at the infinities), and a one-hot-weighted sum over rows is
the sum over the rows carrying that label.
-/

noncomputable section

open scoped BigOperators

namespace Cert.Spec

open Idealize.ShloMosaic Idealize.ShloMosaic.ValueIdx

/-- A label in `[0, 16)` is its own clamp. -/
theorem clip_of_inRange {cw : BitVec 32} (h0 : 0 ≤ cw.toInt) (h1 : cw.toInt < 16) : clip cw = cw := by
  unfold clip IntOp.minsi IntOp.maxsi
  have e0 : (cw.slt 0#32) = false := by
    rw [BitVec.slt_eq_decide]
    simp only [BitVec.toInt_zero, decide_eq_false_iff_not, not_lt]; exact h0
  rw [e0]
  simp only [Bool.false_eq_true, if_false]
  have e1 : ((15#32 : BitVec 32).slt cw) = false := by
    rw [BitVec.slt_eq_decide]
    have : (15#32 : BitVec 32).toInt = 15 := by decide
    rw [this]
    simp only [decide_eq_false_iff_not, not_lt]; omega
  rw [e1]
  simp only [Bool.false_eq_true, if_false]

/-- A context number below 16, as a 32-bit word, reads back as itself. -/
theorem toInt_ofNat_ctx : ∀ k : Fin 16, (BitVec.ofNat 32 k.val).toInt = (k.val : Int) := by decide

/-- The comparison bit of two words, widened and read as a signed integer: `1` when they are equal, else `0`. -/
theorem eqBit_val (a b : BitVec 32) :
    ((((IntOp.cmpi .eq a b).setWidth 32).toInt : ℝ) : EReal) = if a = b then 1 else 0 := by
  have e1 : ((1#1 : BitVec 1).setWidth 32).toInt = 1 := by decide
  have e0 : ((0#1 : BitVec 1).setWidth 32).toInt = 0 := by decide
  by_cases h : a = b
  · rw [if_pos h]
    have : IntOp.cmpi .eq a b = 1#1 := by simp [IntOp.cmpi, h]
    rw [this, e1]; norm_num
  · rw [if_neg h]
    have hb : (a == b) = false := beq_eq_false_iff_ne.mpr h
    have : IntOp.cmpi .eq a b = 0#1 := by
      show BitVec.ofBool (a == b) = 0#1
      rw [hb]; rfl
    rw [this, e0]; norm_num

/-- The one-hot entry of an in-range label: `1` at the label, `0` elsewhere. -/
theorem oh_of_inRange {cw : BitVec 32} (h0 : 0 ≤ cw.toInt) (h1 : cw.toInt < 16) (k : Fin 16) :
    oh cw k = if cw.toInt = (k.val : Int) then 1 else 0 := by
  unfold oh
  rw [clip_of_inRange h0 h1, eqBit_val]
  by_cases e : cw.toInt = (k.val : Int)
  · rw [if_pos e, if_pos]
    apply BitVec.eq_of_toInt_eq
    rw [e, toInt_ofNat_ctx]
  · rw [if_neg e, if_neg]
    intro h
    apply e
    rw [h, toInt_ofNat_ctx]

/-- A one-hot-weighted sum over the contexts selects the term at the label's context. -/
theorem sum_oh_mul {ctx : SC.Idx → BitVec 32} (h : InRange ctx) (n : Fin 131072) (a : Fin 16 → EReal) :
    ∑ k : Fin 16, oh (ctx (ix1 n)) k * a k = a (kOf ctx n) := by
  obtain ⟨h0, h1⟩ := h n
  rw [Finset.sum_eq_single (kOf ctx n)]
  · rw [oh_of_inRange h0 h1, if_pos (toInt_eq_kOf h n), one_mul]
  · intro k _ hk
    rw [oh_of_inRange h0 h1, if_neg, zero_mul]
    intro e
    apply hk
    apply Fin.ext
    have := toInt_eq_kOf h n
    omega
  · intro hn; exact absurd (Finset.mem_univ _) hn

/-- A one-hot-weighted sum over a set of rows is the sum over its rows labelled `k`. -/
theorem sum_oh_rows {ctx : SC.Idx → BitVec 32} (h : InRange ctx) (s : Finset (Fin 131072)) (k : Fin 16)
    (f : Fin 131072 → EReal) :
    ∑ n ∈ s, oh (ctx (ix1 n)) k * f n = ∑ n ∈ s.filter (fun n => (ctx (ix1 n)).toInt = (k.val : Int)), f n := by
  rw [Finset.sum_filter]
  refine Finset.sum_congr rfl fun n _ => ?_
  obtain ⟨h0, h1⟩ := h n
  rw [oh_of_inRange h0 h1]
  by_cases e : (ctx (ix1 n)).toInt = (k.val : Int)
  · rw [if_pos e, if_pos e, one_mul]
  · rw [if_neg e, if_neg e, zero_mul]

end Cert.Spec

end
-- ==== Proof.LayoutReads.lean ====
import Idealize.ShloMosaic.PureOps.Ideal
import Idealize.ShloMosaic.Lib.ValueIdx
import Idealize.ShloMosaic.Lib.Pipeline.Value

/-!
# Broadcasts of small shapes read at an index

A scalar spread over any shape reads the scalar everywhere; a vector of 16 laid out as a 16 × 1 column, and that
column spread over 512 columns, read the vector's entry on the row; a vector of labels laid out as a column reads
the label on the row.
-/

noncomputable section

namespace Cert.Layout

open Idealize.ShloMosaic Idealize.ShloMosaic.ValueIdx

variable {α : Type}

/-- A scalar spread over a shape reads the scalar at every index. -/
theorem bcast_scalar {S : Shape} (h : (⟨0, ![]⟩ : Shape).BroadcastsInDim S (![] : Fin 0 → Fin S.rank))
    (y : (⟨0, ![]⟩ : Shape).Idx → α) (i : S.Idx) : broadcastInDim S ![] h y i = y ix0 :=
  broadcastInDim_apply _ h y i ix0 (fun a => a.elim0)

/-- A vector of `N > 1` entries laid out as an `N × 1` column reads its entry on the row. -/
theorem bcast_col {N : Nat} (hN : N ≠ 1) (h : (⟨1, ![N]⟩ : Shape).BroadcastsInDim ⟨2, ![N, 1]⟩ ![0])
    (y : (⟨1, ![N]⟩ : Shape).Idx → α) (k : Fin N) (z : Fin 1) :
    broadcastInDim ⟨2, ![N, 1]⟩ ![0] h y (ix2 k z) = y (ix1 k) :=
  broadcastInDim_apply _ h y (ix2 k z) (ix1 k) (fun a => match a with
    | ⟨0, _⟩ => by show k.val = if N = 1 then 0 else k.val; rw [if_neg hN])

/-- An `N × 1` column spread over `C` columns reads the column's entry on the row. -/
theorem bcast_row {N C : Nat} (hN : N ≠ 1) (h : (⟨2, ![N, 1]⟩ : Shape).BroadcastsInDim ⟨2, ![N, C]⟩ ![0, 1])
    (y : (⟨2, ![N, 1]⟩ : Shape).Idx → α) (k : Fin N) (q : Fin C) :
    broadcastInDim ⟨2, ![N, C]⟩ ![0, 1] h y (ix2 k q) = y (ix2 k 0) :=
  broadcastInDim_apply _ h y (ix2 k q) (ix2 k 0) (fun a => match a with
    | ⟨0, _⟩ => by show k.val = if N = 1 then 0 else k.val; rw [if_neg hN]
    | ⟨1, _⟩ => by show 0 = if (1 : Nat) = 1 then 0 else q.val; rw [if_pos rfl])

end Cert.Layout

end
-- ==== Proof.Algebra.lean ====
import proofs.«429366_j62783831933726_3_alg».proof.Proof.Spec
import proofs.«429366_j62783831933726_3_alg».proof.Proof.OneHot
import proofs.«429366_j62783831933726_3_alg».proof.Proof.LibIdealReal
import Mathlib.Algebra.Order.Chebyshev

/-!
# Why the two-pass program with split tables computes `Spec.out`

Two facts join the kernel's arithmetic to the specification. First, for real data the one-pass variance
`E[x²] − E[x]²` over `N ≥ 1` rows is nonnegative (`(∑ a)² ≤ N ∑ a²`), so with a positive `ε` the reciprocal
standard deviation is a real number; with real affine parameters and positive real priors the weight and offset
of every context that has a row are then real numbers. Second, a real number `t` split as `t + (t − t)` is `t`
again, while at an infinity `t − t` is `−∞`: realness is exactly what the split needs. The one-hot sums select
the entries at the row's context.
-/

noncomputable section

open scoped BigOperators

namespace Cert.Spec

open Idealize.ShloMosaic Idealize.ShloMosaic.ValueIdx Cert.Lib

/-- The `f32` nearest `10⁻³` is the real `8589935 · 2⁻³³`. -/
theorem eps_eq : eps = (((8589935 : ℝ) * (2 : ℝ) ^ (-33 : Int) : ℝ) : EReal) := by
  unfold eps
  simp [Ideal.ofBits, Ideal.ieee, -EReal.coe_mul]

/-- In the reals: the one-pass variance of `N = card s ≥ 1` numbers is nonnegative. -/
theorem real_onepass_nonneg {ι : Type*} (s : Finset ι) (a : ι → ℝ) (N : ℝ) (hN : (s.card : ℝ) = N) (hpos : 0 < N) :
    0 ≤ (∑ i ∈ s, a i * a i) * (1 / N) - ((∑ i ∈ s, a i) * (1 / N)) * ((∑ i ∈ s, a i) * (1 / N)) := by
  have h := sq_sum_le_card_mul_sum_sq (s := s) (f := a)
  rw [hN] at h
  have h' : (∑ i ∈ s, a i) * (∑ i ∈ s, a i) ≤ N * ∑ i ∈ s, a i * a i := by
    simpa [sq] using h
  have e : (∑ i ∈ s, a i * a i) * (1 / N) - ((∑ i ∈ s, a i) * (1 / N)) * ((∑ i ∈ s, a i) * (1 / N))
      = (N * (∑ i ∈ s, a i * a i) - (∑ i ∈ s, a i) * (∑ i ∈ s, a i)) * ((1 / N) * (1 / N)) := by
    field_simp
  rw [e]
  exact mul_nonneg (sub_nonneg.mpr h') (mul_nonneg (by positivity) (by positivity))

section
variable (x : SX.Idx → EReal) (ctx : SC.Idx → BitVec 32) (γ β : ST.Idx → EReal) (p : SP.Idx → EReal)

/-- For a context with at least one row, real data, real parameters and a positive real prior: the weight and the
    offset are real numbers. -/
theorem tables_real (hx : ∀ i, IsReal (x i)) (hγ : ∀ i, IsReal (γ i)) (hβ : ∀ i, IsReal (β i))
    (hp : ∀ i, IsReal (p i)) (hpos : ∀ i, 0 < p i) (k : Fin 16) (q : Fin 512) (hk : 0 < cnt ctx k) :
    IsReal (w x ctx γ p k q) ∧ IsReal (b x ctx γ β p k q) := by
  have hc : 0 < (rows ctx k).card := by
    have hk' : ((0 : ℕ) : EReal) < ((rows ctx k).card : EReal) := by
      rw [Nat.cast_zero]; exact hk
    exact EReal.natCast_lt_iff.mp hk'
  set N : ℝ := ((rows ctx k).card : ℝ) with hNdef
  have hNpos : 0 < N := Nat.cast_pos.mpr hc
  have hN1 : (1 : ℝ) ≤ N := Nat.one_le_cast.mpr hc
  have hcnt : cnt ctx k = ((N : ℝ) : EReal) := rfl
  choose a ha using fun n : Fin 131072 => hx (ix2 n q)
  have hs1 : s1 x ctx k q = ((∑ n ∈ rows ctx k, a n : ℝ) : EReal) := by
    unfold s1; simp only [ha]; exact coe_sum _ _
  have hs2 : s2 x ctx k q = ((∑ n ∈ rows ctx k, a n * a n : ℝ) : EReal) := by
    unfold s2; simp only [ha, ← EReal.coe_mul]; exact coe_sum _ _
  have hmax : max (cnt ctx k) 1 = ((N : ℝ) : EReal) := by
    rw [hcnt]; exact max_eq_left (by rw [← EReal.coe_one]; exact EReal.coe_le_coe_iff.mpr hN1)
  have hmean : mean (cnt ctx k) (s1 x ctx k q) = (((∑ n ∈ rows ctx k, a n) * (1 / N) : ℝ) : EReal) := by
    unfold mean; rw [hmax, hs1, Ideal.div_coe hNpos.ne', ← EReal.coe_mul]
  have hvar : var (cnt ctx k) (s1 x ctx k q) (s2 x ctx k q)
      = (((∑ n ∈ rows ctx k, a n * a n) * (1 / N)
          - ((∑ n ∈ rows ctx k, a n) * (1 / N)) * ((∑ n ∈ rows ctx k, a n) * (1 / N)) : ℝ) : EReal) := by
    unfold var; rw [hmean, hmax, hs2, Ideal.div_coe hNpos.ne', ← EReal.coe_mul, ← EReal.coe_mul, ← EReal.coe_sub]
  have hvnn := real_onepass_nonneg (rows ctx k) a N rfl hNpos
  have histd : IsReal (istd (cnt ctx k) (s1 x ctx k q) (s2 x ctx k q)) := by
    unfold istd
    rw [hvar, eps_eq, ← EReal.coe_add]
    refine IsReal.rsqrt (IsReal.coe _) (EReal.coe_pos.mpr ?_)
    have : (0 : ℝ) < (8589935 : ℝ) * (2 : ℝ) ^ (-33 : Int) := by positivity
    linarith
  have hps : IsReal (Ideal.rsqrt (p (ix1 k))) := IsReal.rsqrt (hp _) (hpos _)
  have hmr : IsReal (mean (cnt ctx k) (s1 x ctx k q)) := by rw [hmean]; exact IsReal.coe _
  constructor
  · unfold w wOf
    exact ((hγ _).mul histd).mul hps
  · unfold b bOf
    exact ((hβ _).sub (((hγ _).mul hmr).mul histd)).mul hps

/-- THE BRIDGE. The second pass's entry — the data entry times the one-hot selection of a table and of the
    table's difference with itself, plus the same for the offsets — is `Spec.out`, when the tables hold the weight
    and offset on every context that has a row (whatever they hold elsewhere). -/
theorem applyRow_eq_out (hx : ∀ i, IsReal (x i)) (hγ : ∀ i, IsReal (γ i)) (hβ : ∀ i, IsReal (β i))
    (hp : ∀ i, IsReal (p i)) (hpos : ∀ i, 0 < p i) (hctx : InRange ctx) (n : Fin 131072) (q : Fin 512)
    (wf bf : Fin 16 → EReal)
    (hwf : ∀ k, 0 < cnt ctx k → wf k = w x ctx γ p k q) (hbf : ∀ k, 0 < cnt ctx k → bf k = b x ctx γ β p k q) :
    applyRow (x (ix2 n q)) (ctx (ix1 n)) wf (fun k => wf k - wf k) bf (fun k => bf k - bf k)
      = out x ctx γ β p (ix2 n q) := by
  have hk : 0 < cnt ctx (kOf ctx n) := cnt_pos_of_mem (mem_rows_kOf hctx n)
  obtain ⟨hwr, hbr⟩ := tables_real x ctx γ β p hx hγ hβ hp hpos (kOf ctx n) q hk
  unfold applyRow
  rw [sum_oh_mul hctx n wf, sum_oh_mul hctx n (fun k => wf k - wf k), sum_oh_mul hctx n bf,
    sum_oh_mul hctx n (fun k => bf k - bf k)]
  rw [hwf _ hk, hbf _ hk, sub_self_of_isReal hwr, sub_self_of_isReal hbr]
  simp only [zero_add, add_zero]
  rfl

end

end Cert.Spec

end
-- ==== Proof.HostTables.lean ====
import proofs.«429366_j62783831933726_3_alg».proof.Proof.Gen.KernelIdeal.Frame
import proofs.«429366_j62783831933726_3_alg».proof.Proof.Spec
import proofs.«429366_j62783831933726_3_alg».proof.Proof.LayoutReads
import Idealize.ShloMosaic.Lib.ValueIdx
import Idealize.ShloMosaic.Lib.Pipeline.Value
import Idealize.ShloMosaic.Lib.StableHlo.Run
import Idealize.ShloMosaic.PureOps.Ideal.Laws

/-!
# The host arithmetic between the two passes, read at an entry

Between the passes the program adds the two halves' partial sums, counts the labels, and computes per context
`k` and column `q` the weight and offset by the same formulas as the specification (`Spec.wOf`, `Spec.bOf`) from
the count, the sum, the sum of squares, `γ`, `β` and the prior; a context with no row gets weight `1` and offset
`0`. Each table is then written twice: once through a narrowing and widening format change (the identity on
extended reals) and once as the table minus that. Stated for the buffer contents `Wv` at the start of a stretch
of host operations, one stretch at a time.
-/

noncomputable section

open scoped BigOperators

namespace Cert.KernelIdeal.HostTables

open Cert.KernelIdeal Cert.KernelIdeal.Gen Idealize.ShloMosaic Idealize.ShloMosaic.ValueIdx Idealize.ShloMosaic.TcCoe Idealize.SL.Sem Idealize.ShloMosaic.StableHlo

variable (Wv : Valuation τ sig (Elt Ideal))

/-- The buffers the stretches read, at their literal types. -/
abbrev rA0 : S2x16x512.Idx → EReal := Wv (Proc.devRef .tc main_v0_0)
abbrev rA1 : S2x16x512.Idx → EReal := Wv (Proc.devRef .tc main_v0_1)
abbrev rCtx : S131072.Idx → BitVec 32 := Wv (Proc.devRef .tc main_arg1)
abbrev rG : S16x512.Idx → EReal := Wv (Proc.devRef .tc main_arg2)
abbrev rB : S16x512.Idx → EReal := Wv (Proc.devRef .tc main_arg3)
abbrev rP : S16.Idx → EReal := Wv (Proc.devRef .tc main_arg4)
abbrev r23 : S16x512.Idx → EReal := Wv (Proc.devRef .tc main_v23)
abbrev r28 : S16x512.Idx → EReal := Wv (Proc.devRef .tc main_v28)
abbrev r31 : S16x1.Idx → BitVec 1 := Wv (Proc.devRef .tc main_v31)
abbrev r32 : S16x512.Idx → EReal := Wv (Proc.devRef .tc main_v32)
abbrev r33 : S16x512.Idx → EReal := Wv (Proc.devRef .tc main_v33)
abbrev r34 : S16x512.Idx → EReal := Wv (Proc.devRef .tc main_v34)
abbrev r35 : S16x512.Idx → EReal := Wv (Proc.devRef .tc main_v35)

/-- The count of context `k` as the program computes it: an accumulating scatter of ones by the labels. -/
def cntT (k : Fin 16) : EReal :=
  (Host.scatterAdd (F := Ideal) scatter_S16_S131072x1_S131072_n_0_0_1
    (broadcastInDim S16 ![] bcast_S_S16 (constant S_ .f32 0x00000000#32))
    (broadcastInDim S131072x1 ![0] bcast_S131072_S131072x1_0 (rCtx Wv))
    (broadcastInDim S131072 ![] bcast_S_S131072 (constant S_ .f32 0x3F800000#32))) (ix1 k)
/-- The two halves' partial sums added, onto a zero initial value. -/
def sumT (k : Fin 16) (q : Fin 512) : EReal :=
  (Host.reduceAdd (F := Ideal) (rA0 Wv) (constant S_ .f32 0x00000000#32) reducesTo_S2x16x512_S16x512_d0 h_S_) (ix2 k q)
def sqT (k : Fin 16) (q : Fin 512) : EReal :=
  (Host.reduceAdd (F := Ideal) (rA1 Wv) (constant S_ .f32 0x00000000#32) reducesTo_S2x16x512_S16x512_d0 h_S_) (ix2 k q)

/-! ## The first stretch: 40 operations -/

theorem s0_w (k : Fin 16) (q : Fin 512) :
    (StableHlo.after (hostOps1 (F := Ideal)) Wv (Proc.devRef .tc main_v23) : S16x512.Idx → EReal) (ix2 k q)
      = Spec.wOf (cntT Wv k) (sumT Wv k q) (sqT Wv k q) (rG Wv (ix2 k q)) (rP Wv (ix1 k)) := by
  after_results_simp
  have e1 : ∀ (y : S16.Idx → EReal), broadcastInDim S16x512 ![0, 1] bcast_S16x1_S16x512_0_1
      (broadcastInDim S16x1 ![0] bcast_S16_S16x1_0 y) (ix2 k q) = y (ix1 k) := fun y =>
    (Layout.bcast_row (by decide) _ _ k q).trans (Layout.bcast_col (by decide) _ y k 0)
  have e2 : broadcastInDim S16 ![] bcast_S_S16 (constant (F := Ideal) S_ .f32 0x3F800000#32) (ix1 k) = 1 :=
    (Layout.bcast_scalar bcast_S_S16 _ _).trans Cert.Lib.ofBits_f32_one
  have e3 : broadcastInDim S16x512 ![] bcast_S_S16x512 (constant (F := Ideal) S_ .f32 0x3A83126F#32) (ix2 k q)
      = Ideal.ofBits .f32 0x3A83126F#32 := Layout.bcast_scalar bcast_S_S16x512 _ _
  unfold Spec.wOf Spec.istd Spec.var Spec.mean Spec.eps cntT sumT sqT
  simp only [mulf_apply, addf_apply, subf_apply, maximumf_apply, e1, e2, e3,
    Host.rsqrt, Host.divf, Ideal.hostUnary_rsqrt_def, Ideal.hostDivf_def]

theorem s0_b (k : Fin 16) (q : Fin 512) :
    (StableHlo.after (hostOps1 (F := Ideal)) Wv (Proc.devRef .tc main_v28) : S16x512.Idx → EReal) (ix2 k q)
      = Spec.bOf (cntT Wv k) (sumT Wv k q) (sqT Wv k q) (rG Wv (ix2 k q)) (rB Wv (ix2 k q)) (rP Wv (ix1 k)) := by
  after_results_simp
  have e1 : ∀ (y : S16.Idx → EReal), broadcastInDim S16x512 ![0, 1] bcast_S16x1_S16x512_0_1
      (broadcastInDim S16x1 ![0] bcast_S16_S16x1_0 y) (ix2 k q) = y (ix1 k) := fun y =>
    (Layout.bcast_row (by decide) _ _ k q).trans (Layout.bcast_col (by decide) _ y k 0)
  have e2 : broadcastInDim S16 ![] bcast_S_S16 (constant (F := Ideal) S_ .f32 0x3F800000#32) (ix1 k) = 1 :=
    (Layout.bcast_scalar bcast_S_S16 _ _).trans Cert.Lib.ofBits_f32_one
  have e3 : broadcastInDim S16x512 ![] bcast_S_S16x512 (constant (F := Ideal) S_ .f32 0x3A83126F#32) (ix2 k q)
      = Ideal.ofBits .f32 0x3A83126F#32 := Layout.bcast_scalar bcast_S_S16x512 _ _
  unfold Spec.bOf Spec.istd Spec.var Spec.mean Spec.eps cntT sumT sqT
  simp only [mulf_apply, addf_apply, subf_apply, maximumf_apply, e1, e2, e3,
    Host.rsqrt, Host.divf, Ideal.hostUnary_rsqrt_def, Ideal.hostDivf_def]

/-- The presence bit of context `k`: the count compared with zero. -/
theorem s0_p (k : Fin 16) (z : Fin 1) :
    (StableHlo.after (hostOps1 (F := Ideal)) Wv (Proc.devRef .tc main_v31) : S16x1.Idx → BitVec 1) (ix2 k z)
      = Ideal.cmp .ogt (cntT Wv k) 0 := by
  after_results_simp
  rw [Layout.bcast_col (by decide) bcast_S16_S16x1_0 _ k z]
  have e0 : broadcastInDim S16 ![] bcast_S_S16 (constant (F := Ideal) S_ .f32 0x00000000#32) (ix1 k) = 0 :=
    (Layout.bcast_scalar bcast_S_S16 _ _).trans Ideal.ofBits_zero_f32
  simp only [cmpf_apply, e0]
  rfl

theorem s0_one (k : Fin 16) (q : Fin 512) :
    (StableHlo.after (hostOps1 (F := Ideal)) Wv (Proc.devRef .tc main_v32) : S16x512.Idx → EReal) (ix2 k q) = (1 : EReal) := by
  after_results_simp
  exact (Layout.bcast_scalar bcast_S_S16x512 _ _).trans Cert.Lib.ofBits_f32_one

/-! ## The selections and the split, one short stretch each -/

theorem s1_33 (k : Fin 16) (q : Fin 512) :
    (StableHlo.after (hostOps1_1 (F := Ideal)) Wv (Proc.devRef .tc main_v33) : S16x512.Idx → EReal) (ix2 k q)
      = Scalar.select (r31 Wv (ix2 k 0)) (r23 Wv (ix2 k q)) (r32 Wv (ix2 k q)) := by
  after_results
  simp only [TRef.ofBuf, TRef.toBuf, cast_eq]
  rw [select_apply, Layout.bcast_row (by decide) bcast_S16x1_S16x512_0_1 _ k q]

theorem s1_28 : StableHlo.after (hostOps1_1 (F := Ideal)) Wv (Proc.devRef .tc main_v28) = Wv (Proc.devRef .tc main_v28) := by
  after_results
theorem s1_31 : StableHlo.after (hostOps1_1 (F := Ideal)) Wv (Proc.devRef .tc main_v31) = Wv (Proc.devRef .tc main_v31) := by
  after_results

theorem s2_34 (k : Fin 16) (q : Fin 512) :
    (StableHlo.after (hostOps1_2 (F := Ideal)) Wv (Proc.devRef .tc main_v34) : S16x512.Idx → EReal) (ix2 k q) = (0 : EReal) := by
  after_results
  exact (Layout.bcast_scalar bcast_S_S16x512 _ _).trans Ideal.ofBits_zero_f32
theorem s2_33 : StableHlo.after (hostOps1_2 (F := Ideal)) Wv (Proc.devRef .tc main_v33) = Wv (Proc.devRef .tc main_v33) := by
  after_results
theorem s2_28 : StableHlo.after (hostOps1_2 (F := Ideal)) Wv (Proc.devRef .tc main_v28) = Wv (Proc.devRef .tc main_v28) := by
  after_results
theorem s2_31 : StableHlo.after (hostOps1_2 (F := Ideal)) Wv (Proc.devRef .tc main_v31) = Wv (Proc.devRef .tc main_v31) := by
  after_results

theorem s3_35 (k : Fin 16) (q : Fin 512) :
    (StableHlo.after (hostOps1_3 (F := Ideal)) Wv (Proc.devRef .tc main_v35) : S16x512.Idx → EReal) (ix2 k q)
      = Scalar.select (r31 Wv (ix2 k 0)) (r28 Wv (ix2 k q)) (r34 Wv (ix2 k q)) := by
  after_results
  simp only [TRef.ofBuf, TRef.toBuf, cast_eq]
  rw [select_apply, Layout.bcast_row (by decide) bcast_S16x1_S16x512_0_1 _ k q]
theorem s3_33 : StableHlo.after (hostOps1_3 (F := Ideal)) Wv (Proc.devRef .tc main_v33) = Wv (Proc.devRef .tc main_v33) := by
  after_results

theorem s4_37 (k : Fin 16) (q : Fin 512) :
    (StableHlo.after (hostOps1_4 (F := Ideal)) Wv (Proc.devRef .tc main_v37) : S16x512.Idx → EReal) (ix2 k q)
      = r33 Wv (ix2 k q) := by
  after_results
  rfl
theorem s4_38 (k : Fin 16) (q : Fin 512) :
    (StableHlo.after (hostOps1_4 (F := Ideal)) Wv (Proc.devRef .tc main_v38) : S16x512.Idx → EReal) (ix2 k q)
      = r33 Wv (ix2 k q) - r33 Wv (ix2 k q) := by
  after_results
  rfl
theorem s4_40 (k : Fin 16) (q : Fin 512) :
    (StableHlo.after (hostOps1_4 (F := Ideal)) Wv (Proc.devRef .tc main_v40) : S16x512.Idx → EReal) (ix2 k q)
      = r35 Wv (ix2 k q) := by
  after_results
  rfl
theorem s4_41 (k : Fin 16) (q : Fin 512) :
    (StableHlo.after (hostOps1_4 (F := Ideal)) Wv (Proc.devRef .tc main_v41) : S16x512.Idx → EReal) (ix2 k q)
      = r35 Wv (ix2 k q) - r35 Wv (ix2 k q) := by
  after_results
  rfl

/-! ## The four tables the second pass reads, from the contents the first pass leaves -/

/-- The weight table as stored: the weight where the context has a row, else `1`. -/
def wfT (k : Fin 16) (q : Fin 512) : EReal :=
  Scalar.select (Ideal.cmp .ogt (cntT Wv k) 0)
    (Spec.wOf (cntT Wv k) (sumT Wv k q) (sqT Wv k q) (rG Wv (ix2 k q)) (rP Wv (ix1 k))) 1
/-- The offset table as stored: the offset where the context has a row, else `0`. -/
def bfT (k : Fin 16) (q : Fin 512) : EReal :=
  Scalar.select (Ideal.cmp .ogt (cntT Wv k) 0)
    (Spec.bOf (cntT Wv k) (sumT Wv k q) (sqT Wv k q) (rG Wv (ix2 k q)) (rB Wv (ix2 k q)) (rP Wv (ix1 k))) 0

variable (m : (ℓ : Loc nD τ sig) → Buf (Elt Ideal) ℓ) (ρ : Dev nD → PrngReg)

theorem v33_eq (c : Dev nD) (k : Fin 16) (q : Fin 512) :
    r33 (W3 (F := Ideal) m ρ c) (ix2 k q) = wfT (W1 (F := Ideal) m ρ c) k q := by
  refine (s1_33 (W2 (F := Ideal) m ρ c) k q).trans ?_
  unfold wfT
  rw [show r31 (W2 (F := Ideal) m ρ c) (ix2 k 0) = _ from s0_p (W1 (F := Ideal) m ρ c) k 0,
    show r23 (W2 (F := Ideal) m ρ c) (ix2 k q) = _ from s0_w (W1 (F := Ideal) m ρ c) k q,
    show r32 (W2 (F := Ideal) m ρ c) (ix2 k q) = _ from s0_one (W1 (F := Ideal) m ρ c) k q]

theorem v33_w5 (c : Dev nD) : r33 (W5 (F := Ideal) m ρ c) = r33 (W3 (F := Ideal) m ρ c) :=
  (s3_33 (W4 (F := Ideal) m ρ c)).trans (s2_33 (W3 (F := Ideal) m ρ c))

theorem v35_eq (c : Dev nD) (k : Fin 16) (q : Fin 512) :
    r35 (W5 (F := Ideal) m ρ c) (ix2 k q) = bfT (W1 (F := Ideal) m ρ c) k q := by
  refine (s3_35 (W4 (F := Ideal) m ρ c) k q).trans ?_
  have e31 : r31 (W4 (F := Ideal) m ρ c) = r31 (W2 (F := Ideal) m ρ c) :=
    (s2_31 (W3 (F := Ideal) m ρ c)).trans (s1_31 (W2 (F := Ideal) m ρ c))
  have e28 : r28 (W4 (F := Ideal) m ρ c) = r28 (W2 (F := Ideal) m ρ c) :=
    (s2_28 (W3 (F := Ideal) m ρ c)).trans (s1_28 (W2 (F := Ideal) m ρ c))
  unfold bfT
  rw [e31, e28, show r31 (W2 (F := Ideal) m ρ c) (ix2 k 0) = _ from s0_p (W1 (F := Ideal) m ρ c) k 0,
    show r28 (W2 (F := Ideal) m ρ c) (ix2 k q) = _ from s0_b (W1 (F := Ideal) m ρ c) k q,
    show r34 (W4 (F := Ideal) m ρ c) (ix2 k q) = _ from s2_34 (W3 (F := Ideal) m ρ c) k q]

/-- The four tables at the second pass's entry. -/
theorem t37 (c : Dev nD) (k : Fin 16) (q : Fin 512) :
    (W6 (F := Ideal) m ρ c (Proc.devRef .tc main_v37) : S16x512.Idx → EReal) (ix2 k q) = wfT (W1 (F := Ideal) m ρ c) k q :=
  (s4_37 (W5 (F := Ideal) m ρ c) k q).trans ((congrFun (v33_w5 m ρ c) (ix2 k q)).trans (v33_eq m ρ c k q))
theorem t38 (c : Dev nD) (k : Fin 16) (q : Fin 512) :
    (W6 (F := Ideal) m ρ c (Proc.devRef .tc main_v38) : S16x512.Idx → EReal) (ix2 k q)
      = wfT (W1 (F := Ideal) m ρ c) k q - wfT (W1 (F := Ideal) m ρ c) k q := by
  refine (s4_38 (W5 (F := Ideal) m ρ c) k q).trans ?_
  rw [congrFun (v33_w5 m ρ c) (ix2 k q), v33_eq]
theorem t40 (c : Dev nD) (k : Fin 16) (q : Fin 512) :
    (W6 (F := Ideal) m ρ c (Proc.devRef .tc main_v40) : S16x512.Idx → EReal) (ix2 k q) = bfT (W1 (F := Ideal) m ρ c) k q :=
  (s4_40 (W5 (F := Ideal) m ρ c) k q).trans (v35_eq m ρ c k q)
theorem t41 (c : Dev nD) (k : Fin 16) (q : Fin 512) :
    (W6 (F := Ideal) m ρ c (Proc.devRef .tc main_v41) : S16x512.Idx → EReal) (ix2 k q)
      = bfT (W1 (F := Ideal) m ρ c) k q - bfT (W1 (F := Ideal) m ρ c) k q := by
  refine (s4_41 (W5 (F := Ideal) m ρ c) k q).trans ?_
  rw [v35_eq]

end Cert.KernelIdeal.HostTables

end
-- ==== Proof.StatsStep.lean ====
import proofs.«429366_j62783831933726_3_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.Tactic

/-!
# One tile's pass over the two accumulators

At a tile that opens a half the pass first stores the zero block into both accumulators and then adds the tile's
contribution to what it reads back; at every other tile it adds the tile's contribution to what the tile before
left. Either way each accumulator ends at the update of its previous contents (the zero block after a reset) by
the tile's data block and label block.
-/

noncomputable section

open scoped BigOperators

namespace Cert.KernelIdeal.StatsStep

open Cert.KernelIdeal Cert.KernelIdeal.Gen Idealize.ShloMosaic Idealize.ShloMosaic.ValueIdx Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- A tile inside a half leaves, in the accumulator of sums holding `xo2`, its update by the tile's blocks. -/
theorem left_B_sum (c : Dev nD) (i : grid0.Coords) (a2 : Memref sig .tc .vmem S2048x512 .f32) (h2 : a2.IsWhole)
    (a3 : Memref sig .tc .vmem S2048 .i32) (h3 : a3.IsWhole) (a4 : Memref sig .tc .vmem S1x16x512 .f32) (h4 : a4.IsWhole)
    (a5 : Memref sig .tc .vmem S1x16x512 .f32) (h5 : a5.IsWhole) (hc : ¬cond0_0 i)
    (x0 : Vec F S2048x512 .f32) (x1 : Vec F S2048 .i32) (xo2 xo3 : Vec F S1x16x512 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S2048x512) hz2,
    View.ld_unit_zero (S := S2048) hz1, View.ld_unit_zero (S := S1x16x512) hz3]

/-- A tile inside a half leaves, in the accumulator of sums of squares holding `xo3`, its update by the tile's blocks. -/
theorem left_B_sq (c : Dev nD) (i : grid0.Coords) (a2 : Memref sig .tc .vmem S2048x512 .f32) (h2 : a2.IsWhole)
    (a3 : Memref sig .tc .vmem S2048 .i32) (h3 : a3.IsWhole) (a4 : Memref sig .tc .vmem S1x16x512 .f32) (h4 : a4.IsWhole)
    (a5 : Memref sig .tc .vmem S1x16x512 .f32) (h5 : a5.IsWhole) (hc : ¬cond0_0 i)
    (x0 : Vec F S2048x512 .f32) (x1 : Vec F S2048 .i32) (xo2 xo3 : Vec F S1x16x512 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S2048x512) hz2,
    View.ld_unit_zero (S := S2048) hz1, View.ld_unit_zero (S := S1x16x512) hz3]

/-- The tile that opens a half leaves, in the accumulator of sums, the update of the zero block by the tile's blocks. -/
theorem left_A_sum (c : Dev nD) (i : grid0.Coords) (a2 : Memref sig .tc .vmem S2048x512 .f32) (h2 : a2.IsWhole)
    (a3 : Memref sig .tc .vmem S2048 .i32) (h3 : a3.IsWhole) (a4 : Memref sig .tc .vmem S1x16x512 .f32) (h4 : a4.IsWhole)
    (a5 : Memref sig .tc .vmem S1x16x512 .f32) (h5 : a5.IsWhole) (hc : cond0_0 i)
    (x0 : Vec F S2048x512 .f32) (x1 : Vec F S2048 .i32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x16x512) hz3, View.readCov_unit_zero (S := S1x16x512) _ hz3]
  simp only [View.readAt_eq_ld, h2.read_unread, h3.read_unread, View.ld_unit_zero (S := S2048x512) hz2,
    View.ld_unit_zero (S := S2048) hz1, View.ld_unit_zero (S := S1x16x512) hz3]

/-- The tile that opens a half leaves, in the accumulator of sums of squares, the update of the zero block by the tile's blocks. -/
theorem left_A_sq (c : Dev nD) (i : grid0.Coords) (a2 : Memref sig .tc .vmem S2048x512 .f32) (h2 : a2.IsWhole)
    (a3 : Memref sig .tc .vmem S2048 .i32) (h3 : a3.IsWhole) (a4 : Memref sig .tc .vmem S1x16x512 .f32) (h4 : a4.IsWhole)
    (a5 : Memref sig .tc .vmem S1x16x512 .f32) (h5 : a5.IsWhole) (hc : cond0_0 i)
    (x0 : Vec F S2048x512 .f32) (x1 : Vec F S2048 .i32) :
    out0_A_3 c i a2 h2 a3 h3 a4 h4 a5 h5 hc x0 x1 = k0_pay5 x0 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x16x512) hz3, View.readCov_unit_zero (S := S1x16x512) _ hz3]
  simp only [View.readAt_eq_ld, h2.read_unread, h3.read_unread, View.ld_unit_zero (S := S2048x512) hz2,
    View.ld_unit_zero (S := S2048) hz1, View.ld_unit_zero (S := S1x16x512) hz3]

end Cert.KernelIdeal.StatsStep

end
-- ==== Proof.TileValue.lean ====
import proofs.«429366_j62783831933726_3_alg».proof.Proof.Gen.KernelIdeal.Skeleton
import proofs.«429366_j62783831933726_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# One tile's contribution, entry by entry

Over the extended reals, one update of an accumulator by a tile's data block `x0` (2048 × 512) and label block
`x1` (2048 labels) adds, at context `k` and column `q`, the sum over the tile's 2048 rows of
(one-hot of the row's clamped label at `k`) × (the row's entry in column `q`) — for the second accumulator the
entry squared. The one-hot matrix entry `(r, k)` is `1` exactly when row `r`'s clamped label is `k`; the product
contracts the rows of the one-hot matrix against the rows of the data block, onto a zero block.
-/

noncomputable section

open scoped BigOperators

namespace Cert.KernelIdeal.TileValue

open Cert.KernelIdeal Cert.KernelIdeal.Gen Idealize.ShloMosaic Idealize.ShloMosaic.ValueIdx

/-- A column of labels spread over the 16 contexts reads, at `(r, k)`, row `r`'s label. -/
theorem labelCol_apply (v : S2048.Idx → BitVec 32) (r : Fin 2048) (k : Fin 16) :
    broadcastTo S2048x16 (shapeCast S2048x1 v shapeCasts_S2048_S2048x1) broadcasts_S2048x1_S2048x16 (ix2 r k) = v (ix1 r) :=
  (broadcastTo_apply _ _ (ix2 r k) (ix2 r (0 : Fin 1)) (fun a => match a with | ⟨0, _⟩ => rfl | ⟨1, _⟩ => rfl)).trans
    (shapeCast_apply v _ (ix2 r (0 : Fin 1)) (ix1 r) (by
      rw [Shape.rowMajor_val_one, Shape.rowMajor_val_two]
      show r.val = r.val * 1 + 0
      omega))

/-- The one-hot matrix of a label block: entry `(r, k)` is the one-hot entry of row `r`'s label at context `k`
    (the label clamped into `[0, 15]`, compared with the column number `k`, the bit read as a signed integer). -/
theorem onehot_apply (x1 : S2048.Idx → BitVec 32) (r : Fin 2048) (k : Fin 16) :
    k0_pay3 (F := Ideal) x1 (ix2 r k) = Spec.oh (x1 (ix1 r)) k := by
  unfold k0_pay3 Spec.oh Spec.clip
  dsimp only
  show ((((IntOp.cmpi .eq (broadcastTo S2048x16 (shapeCast S2048x1 (minsi (broadcast S2048 15#32) (maxsi (broadcast S2048 0#32) x1)) shapeCasts_S2048_S2048x1) broadcasts_S2048x1_S2048x16 (ix2 r k)) (iota .tc S2048x16 32 [1] iota_S2048x16_d1_w32 (ix2 r k))).setWidth 32).toInt : ℝ) : EReal) = _
  rw [labelCol_apply, iota_single_apply]
  rfl

/-- The product's dimension numbers: both operands contract their rows (axis 0); the result is
    (columns of the left) × (columns of the right). -/
abbrev D := dot_S2048x16_S2048x512_S16x512_0_0_1_1_n_n

/-- At result entry `j` and contraction position `kk` the left operand is read at row `kk`, column `j 0`, -/
theorem lhs_row (j : S16x512.Idx) (kk : D.contr.Idx) : (D.lhsIdx j kk 0).val = (kk ⟨0, by decide⟩).val :=
  D.lhsIdx_val_of_single (cl := 0) rfl j kk
theorem lhs_col (j : S16x512.Idx) (kk : D.contr.Idx) : (D.lhsIdx j kk 1).val = (j 0).val := rfl
/-- and the right operand at row `kk`, column `j 1`. -/
theorem rhs_row (j : S16x512.Idx) (kk : D.contr.Idx) : (D.rhsIdx j kk 0).val = (kk ⟨0, by decide⟩).val :=
  D.rhsIdx_val_of_single (cr := 0) rfl j kk
theorem rhs_col (j : S16x512.Idx) (kk : D.contr.Idx) : (D.rhsIdx j kk 1).val = (j 1).val := rfl

theorem lhsIdx_eq (k : Fin 16) (q : Fin 512) (r : Fin 2048) :
    D.lhsIdx (ix2 k q) ((contrEquiv1 D 2048 rfl rfl).symm r) = ix2 r k := by
  funext a; apply Fin.ext
  match a with
  | ⟨0, _⟩ => exact (lhs_row _ _).trans (contrEquiv1_symm_val D 2048 rfl rfl r)
  | ⟨1, _⟩ => exact lhs_col _ _

theorem rhsIdx_eq (k : Fin 16) (q : Fin 512) (r : Fin 2048) :
    D.rhsIdx (ix2 k q) ((contrEquiv1 D 2048 rfl rfl).symm r) = ix2 r q := by
  funext a; apply Fin.ext
  match a with
  | ⟨0, _⟩ => exact (rhs_row _ _).trans (contrEquiv1_symm_val D 2048 rfl rfl r)
  | ⟨1, _⟩ => exact rhs_col _ _

/-- The one-hot matrix contracted against a 2048 × 512 block `y` onto the zero block: entry `(k, q)` is the sum
    over the rows of (one-hot at `k`) × (the block's entry in column `q`). -/
theorem contract_apply (y : FVec Ideal S2048x512 .f32) (x1 : S2048.Idx → BitVec 32) (k : Fin 16) (q : Fin 512) :
    matmul (F := Ideal) D none (k0_pay3 (F := Ideal) x1) y (constant (F := Ideal) S16x512 .f32 0x00000000#32) (ix2 k q)
      = ∑ r : Fin 2048, Spec.oh (x1 (ix1 r)) k * y (ix2 r q) := by
  refine (Ideal.matmul_constant_zero_apply D none _ _ (ix2 k q)).trans ?_
  rw [← Equiv.sum_comp (contrEquiv1 D 2048 rfl rfl).symm]
  refine Finset.sum_congr rfl fun r _ => ?_
  rw [lhsIdx_eq, rhsIdx_eq, onehot_apply]

/-- The update of the accumulator of sums: the previous entry plus the tile's one-hot-weighted column sum. -/
theorem sum_step_apply (x0 : S2048x512.Idx → EReal) (x1 : S2048.Idx → BitVec 32) (acc : S1x16x512.Idx → EReal) (k : Fin 16) (q : Fin 512) :
    k0_pay4 (F := Ideal) x0 x1 acc (ix3 (0 : Fin 1) k q)
      = acc (ix3 (0 : Fin 1) k q) + ∑ r : Fin 2048, Spec.oh (x1 (ix1 r)) k * x0 (ix2 r q) := by
  unfold k0_pay4
  refine (shapeCast_ab_1ab_apply _ _ (0 : Fin 1) k q).trans ?_
  exact congrArg₂ (· + ·) (shapeCast_1ab_ab_apply acc _ k q) (contract_apply x0 x1 k q)

/-- The update of the accumulator of sums of squares: the previous entry plus the tile's one-hot-weighted column
    sum of the squared entries. -/
theorem sq_step_apply (x0 : S2048x512.Idx → EReal) (x1 : S2048.Idx → BitVec 32) (acc : S1x16x512.Idx → EReal) (k : Fin 16) (q : Fin 512) :
    k0_pay5 (F := Ideal) x0 x1 acc (ix3 (0 : Fin 1) k q)
      = acc (ix3 (0 : Fin 1) k q) + ∑ r : Fin 2048, Spec.oh (x1 (ix1 r)) k * (x0 (ix2 r q) * x0 (ix2 r q)) := by
  unfold k0_pay5
  refine (shapeCast_ab_1ab_apply _ _ (0 : Fin 1) k q).trans ?_
  exact congrArg₂ (· + ·) (shapeCast_1ab_ab_apply acc _ k q) (contract_apply (mulf (F := Ideal) x0 x0) x1 k q)

/-- The block a reset stores is zero everywhere (both accumulators' resets store the same block). -/
theorem reset_sum_apply (k : Fin 16) (q : Fin 512) : k0_pay1 (F := Ideal) (ix3 (0 : Fin 1) k q) = 0 := by
  unfold k0_pay1
  refine (shapeCast_ab_1ab_apply _ _ (0 : Fin 1) k q).trans ?_
  exact Ideal.ofBits_zero_f32

theorem reset_sq_apply (k : Fin 16) (q : Fin 512) : k0_pay2 (F := Ideal) (ix3 (0 : Fin 1) k q) = 0 := by
  unfold k0_pay2
  refine (shapeCast_ab_1ab_apply _ _ (0 : Fin 1) k q).trans ?_
  exact Ideal.ofBits_zero_f32

end Cert.KernelIdeal.TileValue

end
-- ==== Proof.TileSum.lean ====
import proofs.«429366_j62783831933726_3_alg».proof.Proof.Spec

/-!
# Sums over runs of consecutive rows

The first pass reads the 131072 rows in 64 tiles of 2048 consecutive rows; a half of the matrix is 32 consecutive
tiles. A sum over a run of rows `[lo, hi)` splits at any row between; a sum over the 2048 rows of one tile is the sum
over the run that tile occupies; and the run `[65536 h, 65536 (h + 1))` is half `h`.
-/

noncomputable section

open scoped BigOperators

namespace Cert.TileSum

/-- The rows whose number lies in `[lo, hi)`. -/
def rowsIn (lo hi : ℕ) : Finset (Fin 131072) := Finset.univ.filter fun n => lo ≤ n.val ∧ n.val < hi

theorem mem_rowsIn {lo hi : ℕ} {n : Fin 131072} : n ∈ rowsIn lo hi ↔ lo ≤ n.val ∧ n.val < hi := by
  unfold rowsIn
  rw [Finset.mem_filter]
  exact ⟨fun h => h.2, fun h => ⟨Finset.mem_univ _, h⟩⟩

/-- Row `r` of tile `t`: row `2048 t + r` of the matrix. -/
def tileRow (t : Fin 64) (r : Fin 2048) : Fin 131072 :=
  ⟨2048 * t.val + r.val, by have := t.isLt; have := r.isLt; omega⟩

theorem tileRow_val (t : Fin 64) (r : Fin 2048) : (tileRow t r).val = 2048 * t.val + r.val := rfl

/-- A sum over a run of rows splits at any row between its ends. -/
theorem sum_rowsIn_split {M : Type*} [AddCommMonoid M] (f : Fin 131072 → M) {lo mid hi : ℕ} (h1 : lo ≤ mid) (h2 : mid ≤ hi) :
    ∑ n ∈ rowsIn lo mid, f n + ∑ n ∈ rowsIn mid hi, f n = ∑ n ∈ rowsIn lo hi, f n := by
  rw [← Finset.sum_union]
  · refine Finset.sum_congr ?_ fun _ _ => rfl
    ext n
    rw [Finset.mem_union, mem_rowsIn, mem_rowsIn, mem_rowsIn]
    omega
  · rw [Finset.disjoint_left]
    intro n hn hn'
    rw [mem_rowsIn] at hn hn'
    omega

/-- The rows of tile `t` are the run `[2048 t, 2048 t + 2048)`, each met once. -/
theorem sum_tile {M : Type*} [AddCommMonoid M] (f : Fin 131072 → M) (t : Fin 64) :
    ∑ r : Fin 2048, f (tileRow t r) = ∑ n ∈ rowsIn (2048 * t.val) (2048 * t.val + 2048), f n := by
  have himg : rowsIn (2048 * t.val) (2048 * t.val + 2048) = Finset.univ.image (tileRow t) := by
    ext n
    rw [mem_rowsIn, Finset.mem_image]
    constructor
    · intro h
      refine ⟨⟨n.val - 2048 * t.val, by omega⟩, Finset.mem_univ _, Fin.ext ?_⟩
      show 2048 * t.val + (n.val - 2048 * t.val) = n.val
      omega
    · rintro ⟨r, -, rfl⟩
      have := r.isLt
      rw [tileRow_val]
      omega
  rw [himg, Finset.sum_image]
  intro r _ r' _ h
  have hv : (tileRow t r).val = (tileRow t r').val := congrArg Fin.val h
  rw [tileRow_val, tileRow_val] at hv
  exact Fin.ext (by omega)

/-- Half `h` of the matrix is the run `[65536 h, 65536 h + 65536)`. -/
theorem rowsIn_half (h : Fin 2) : rowsIn (65536 * h.val) (65536 * h.val + 65536) = Spec.half h := by
  ext n
  unfold Spec.half
  rw [mem_rowsIn, Finset.mem_filter]
  have := n.isLt
  have := h.isLt
  constructor
  · intro hn
    exact ⟨Finset.mem_univ _, by omega⟩
  · rintro ⟨-, hn⟩
    omega

end Cert.TileSum

end
-- ==== Proof.StatsValue.lean ====
import proofs.«429366_j62783831933726_3_alg».proof.Proof.Gen.KernelIdeal.Frame
import proofs.«429366_j62783831933726_3_alg».proof.Proof.Spec
import proofs.«429366_j62783831933726_3_alg».proof.Proof.StatsStep
import proofs.«429366_j62783831933726_3_alg».proof.Proof.TileValue
import proofs.«429366_j62783831933726_3_alg».proof.Proof.TileSum
import Idealize.ShloMosaic.Lib.ValueIdx
import Idealize.ShloMosaic.Lib.Pipeline.Value
import Idealize.ShloMosaic.PureOps.Ideal.Laws

/-!
# What the first pass leaves: per half of the rows, the one-hot-weighted column sums

The first pass walks 64 tiles of 2048 rows, 32 per half of the matrix; within a half it accumulates, for each
context `k` and column `q`, the sum over the tile's rows of (one-hot of the row's label at `k`) × (the entry),
starting from zero at the half's first tile. After the pass, entry `(h, k, q)` of the first result is that sum
over all rows of half `h`, and of the second result the same sum of the squared entries.

The argument: tile `t` reads rows `[2048 t, 2048 t + 2048)` of the matrix and of the labels; after tile `t` the
accumulators hold the sums over the rows from the start of `t`'s half up to the end of tile `t` (induction on the
tile: a half's first tile starts from zero, every other tile adds to what the tile before left); a half's last
tile is the one whose accumulators are written back, into block `h` of the results, and there the run of rows is
the whole half.
-/

noncomputable section

open scoped BigOperators

namespace Cert.KernelIdeal.StatsValue

open Cert.KernelIdeal Cert.KernelIdeal.Gen Idealize.ShloMosaic Idealize.ShloMosaic.ValueIdx Idealize.ShloMosaic.TcCoe Idealize.SL.Sem
open Cert.TileSum (rowsIn tileRow)

variable (m : (ℓ : Loc nD τ sig) → Buf (Elt Ideal) ℓ) (ρ : Dev nD → PrngReg)

/-- The data matrix and the label vector as launched, at their literal types. -/
abbrev xArr (c : Dev nD) : S131072x512.Idx → EReal := m ((c.tc : Thread nD τ).loc main_arg0)
abbrev cArr (c : Dev nD) : S131072.Idx → BitVec 32 := m ((c.tc : Thread nD τ).loc main_arg1)

/-- Row `n`'s term of the sums at context `k`, column `q`; and of the sums of squares. -/
abbrev term (c : Dev nD) (k : Fin 16) (q : Fin 512) (n : Fin 131072) : EReal :=
  Spec.oh (cArr m c (ix1 n)) k * xArr m c (ix2 n q)
abbrev termSq (c : Dev nD) (k : Fin 16) (q : Fin 512) (n : Fin 131072) : EReal :=
  Spec.oh (cArr m c (ix1 n)) k * (xArr m c (ix2 n q) * xArr m c (ix2 n q))

/-- The windows' block indices over the grid: tile `t` reads block `t` of the matrix and of the labels, and its
    accumulators belong to block `t / 32` of the results. -/
theorem idx_facts : ∀ t : Fin cfg0.N,
    win0_0.index t (0 : Fin 2) = t.val ∧ win0_0.index t (1 : Fin 2) = 0 ∧ win0_1.index t (0 : Fin 1) = t.val
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- A grid point as a tile number. -/
abbrev tile (t : Fin cfg0.N) : Fin 64 := ⟨t.val, lt_of_lt_of_eq t.isLt N_0⟩

/-- Tile `t`'s data block and label block, at their literal types. -/
abbrev xBlk (c : Dev nD) (t : Fin cfg0.N) : S2048x512.Idx → EReal := iblk0 (F := Ideal) (V0 m ρ) c 0 t
abbrev cBlk (c : Dev nD) (t : Fin cfg0.N) : S2048.Idx → BitVec 32 := iblk0 (F := Ideal) (V0 m ρ) c 1 t

/-- Entry `(r, q)` of tile `t`'s data block is entry `(2048 t + r, q)` of the matrix. -/
theorem xBlk_apply (c : Dev nD) (t : Fin cfg0.N) (r : Fin 2048) (q : Fin 512) :
    xBlk m ρ c t (ix2 r q) = xArr m c (ix2 (tileRow (tile t) r) q) := by
  obtain ⟨e0, e1, -⟩ := idx_facts t
  show xArr m c (((cfg0.win 0).blk t).view.emb (ix2 r q)) = _
  refine congrArg (xArr m c) (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 512 + 1 * q.val = q.val; rw [e1]; omega

/-- Entry `r` of tile `t`'s label block is the label of row `2048 t + r`. -/
theorem cBlk_apply (c : Dev nD) (t : Fin cfg0.N) (r : Fin 2048) :
    cBlk m ρ c t (ix1 r) = cArr m c (ix1 (tileRow (tile t) r)) := by
  obtain ⟨-, -, e0, -⟩ := idx_facts t
  show cArr m c (((cfg0.win 1).blk t).view.emb (ix1 r)) = _
  refine congrArg (cArr m c) (funext fun a => Fin.ext ?_)
  match a with
  | ⟨0, _⟩ => show win0_1.index t (0 : Fin 1) * 2048 + 1 * r.val = 2048 * t.val + r.val; rw [e0]; omega

/-- Tile `t`'s contribution is the sum of the terms of the rows `[2048 t, 2048 t + 2048)`. -/
theorem tile_sum (c : Dev nD) (t : Fin cfg0.N) (k : Fin 16) (q : Fin 512) :
    ∑ r : Fin 2048, Spec.oh (cBlk m ρ c t (ix1 r)) k * xBlk m ρ c t (ix2 r q)
      = ∑ n ∈ rowsIn (2048 * t.val) (2048 * t.val + 2048), term m c k q n := by
  refine Eq.trans ?_ (Cert.TileSum.sum_tile (term m c k q) (tile t))
  refine Finset.sum_congr rfl fun r _ => ?_
  rw [xBlk_apply, cBlk_apply]

/-- A half's first tile leaves, in the accumulator of sums, its own contribution. -/
theorem acc_A (c : Dev nD) (k : Fin 16) (q : Fin 512) (t : Fin cfg0.N) (h0 : t.val % 32 = 0) :
    ((outsAt0 (F := Ideal) (V0 m ρ) c t.val t.isLt).1 : S1x16x512.Idx → EReal) (ix3 (0 : Fin 1) k q)
      = ∑ n ∈ rowsIn (2048 * t.val) (2048 * t.val + 2048), term m c k q n := by
  rw [outsAt0_A (V0 m ρ) c t h0]
  dsimp only
  refine (congrFun (StatsStep.left_A_sum (F := Ideal) c (grid0.coords t) (ms0_0 t) (hs0_0 t) (ms0_1 t) (hs0_1 t) (ms0_2 t) (hs0_2 t) (ms0_3 t) (hs0_3 t) ((hcond0_0 t).mpr h0) (xBlk m ρ c t) (cBlk m ρ c t)) (ix3 (0 : Fin 1) k q)).trans ?_
  refine (TileValue.sum_step_apply (xBlk m ρ c t) (cBlk m ρ c t) (k0_pay1 (F := Ideal)) k q).trans ?_
  rw [TileValue.reset_sum_apply, zero_add]
  exact tile_sum m ρ c t k q

/-- Every other tile adds its contribution to what the tile before left. -/
theorem acc_B (c : Dev nD) (k : Fin 16) (q : Fin 512) (t : Fin cfg0.N) (h0 : ¬t.val % 32 = 0) :
    ((outsAt0 (F := Ideal) (V0 m ρ) c t.val t.isLt).1 : S1x16x512.Idx → EReal) (ix3 (0 : Fin 1) k q)
      = ((outsAt0 (F := Ideal) (V0 m ρ) c (t.val - 1) (Nat.lt_of_le_of_lt (Nat.sub_le t.val 1) t.isLt)).1 : S1x16x512.Idx → EReal) (ix3 (0 : Fin 1) k q)
        + ∑ n ∈ rowsIn (2048 * t.val) (2048 * t.val + 2048), term m c k q n := by
  rw [outsAt0_B (V0 m ρ) c t h0]
  dsimp only
  refine (congrFun (StatsStep.left_B_sum (F := Ideal) c (grid0.coords t) (ms0_0 t) (hs0_0 t) (ms0_1 t) (hs0_1 t) (ms0_2 t) (hs0_2 t) (ms0_3 t) (hs0_3 t) (fun h => h0 ((hcond0_0 t).mp h)) (xBlk m ρ c t) (cBlk m ρ c t)
    (outsAt0 (F := Ideal) (V0 m ρ) c (t.val - 1) (Nat.lt_of_le_of_lt (Nat.sub_le t.val 1) t.isLt)).1
    (outsAt0 (F := Ideal) (V0 m ρ) c (t.val - 1) (Nat.lt_of_le_of_lt (Nat.sub_le t.val 1) t.isLt)).2) (ix3 (0 : Fin 1) k q)).trans ?_
  refine (TileValue.sum_step_apply (xBlk m ρ c t) (cBlk m ρ c t) _ k q).trans ?_
  rw [tile_sum m ρ c t k q]

/-- After tile `n` the accumulator of sums holds the sum over the rows from the start of `n`'s half to the end of
    tile `n`. -/
theorem acc_sum (c : Dev nD) (k : Fin 16) (q : Fin 512) : ∀ (n : ℕ) (hn : n < cfg0.N),
    ((outsAt0 (F := Ideal) (V0 m ρ) c n hn).1 : S1x16x512.Idx → EReal) (ix3 (0 : Fin 1) k q)
      = ∑ j ∈ rowsIn (65536 * (n / 32)) (2048 * n + 2048), term m c k q j
  | 0, hn => acc_A m ρ c k q ⟨0, hn⟩ rfl
  | n + 1, hn => by
    by_cases h0 : (n + 1) % 32 = 0
    · rw [show 65536 * ((n + 1) / 32) = 2048 * (n + 1) by omega]
      exact acc_A m ρ c k q ⟨n + 1, hn⟩ h0
    · refine (acc_B m ρ c k q ⟨n + 1, hn⟩ h0).trans ?_
      show ((outsAt0 (F := Ideal) (V0 m ρ) c n (Nat.lt_of_succ_lt hn)).1 : S1x16x512.Idx → EReal) (ix3 (0 : Fin 1) k q)
          + ∑ j ∈ rowsIn (2048 * (n + 1)) (2048 * (n + 1) + 2048), term m c k q j
        = ∑ j ∈ rowsIn (65536 * ((n + 1) / 32)) (2048 * (n + 1) + 2048), term m c k q j
      rw [acc_sum c k q n (Nat.lt_of_succ_lt hn), show 65536 * ((n + 1) / 32) = 65536 * (n / 32) by omega,
        show 2048 * n + 2048 = 2048 * (n + 1) by omega]
      exact Cert.TileSum.sum_rowsIn_split _ (by omega) (by omega)

/-- What the first result ends holding: entry `(h, k, q)` is the sum of the terms over half `h`. -/
def halfSum (c : Dev nD) (h : Fin 2) (k : Fin 16) (q : Fin 512) : EReal := ∑ n ∈ Spec.half h, term m c k q n
def sumArr (c : Dev nD) : S2x16x512.Idx → EReal := fun i => halfSum m c (i 0) (i 1) (i 2)

/-- An index of the first result lies in tile `t`'s block iff each coordinate lies in the block's range on its axis. -/
theorem mem_blk_sum (t : Fin cfg0.N) (i : S2x16x512.Idx) :
    i ∈ ((cfg0.win 2).blk t).view.set ↔ ∀ a : Fin 3, win0_2.index t a * S1x16x512.size a ≤ (i a).val ∧ (i a).val < win0_2.index t a * S1x16x512.size a + S1x16x512.size a := by
  show i ∈ ((View.whole main_v0_0).slice (win0_2.rect t)).set ↔ _
  rw [View.set_slice_whole, Rect.mem_set_unit]
  exact Iff.rfl

/-- A block `X` whose entry `(0, k, q)` is entry `(t / 32, k, q)` of an array `G` is what block `t` of the first
    result reads of `G`: tile `t`'s block sits at block index `t / 32` on the first axis and `0` on the others. -/
theorem blk_sum_of_entries (t : Fin cfg0.N) (ht : t.val / 32 < 2) (X : S1x16x512.Idx → EReal) (G : S2x16x512.Idx → EReal)
    (hX : ∀ (k : Fin 16) (q : Fin 512), X (ix3 (0 : Fin 1) k q) = G (ix3 (⟨t.val / 32, ht⟩ : Fin 2) k q)) :
    (cfg0.win 2).cut (grid0.coords t) X = ((cfg0.win 2).blk t).view.read (Elt Ideal) G := by
  obtain ⟨-, -, -, e0, e1, e2, -⟩ := idx_facts t
  funext y
  obtain ⟨u, k, q, rfl⟩ : ∃ (u : Fin 1) (k : Fin 16) (q : Fin 512), y = ix3 u k q := ⟨y 0, y 1, y 2, eq_ix3 (n0 := 1) (n1 := 16) (n2 := 512) y⟩
  obtain rfl : u = 0 := Subsingleton.elim _ _
  have hemb : ((cfg0.win 2).blk t).view.emb (ix3 (0 : Fin 1) k q) = ix3 (⟨t.val / 32, ht⟩ : Fin 2) k q := by
    funext a; apply Fin.ext
    match a with
    | ⟨0, _⟩ => show win0_2.index t (0 : Fin 3) * 1 + 1 * 0 = t.val / 32; rw [e0]; omega
    | ⟨1, _⟩ => show win0_2.index t (1 : Fin 3) * 16 + 1 * k.val = k.val; rw [e1]; omega
    | ⟨2, _⟩ => show win0_2.index t (2 : Fin 3) * 512 + 1 * q.val = q.val; rw [e2]; omega
  show X (ix3 (0 : Fin 1) k q) = G (((cfg0.win 2).blk t).view.emb (ix3 (0 : Fin 1) k q))
  rw [hemb]
  exact hX k q

/-- The tile that closes a half writes back block `t / 32` of the sums over that half. -/
theorem flushed_sum (c : Dev nD) (t : Fin cfg0.N) (hf : (cfg0.win 2).flush t = true) :
    (dat0 (F := Ideal) (V0 m ρ) c).flushed 2 t = ((cfg0.win 2).blk t).view.read (Elt Ideal) (sumArr m c) := by
  have h31 : t.val % 32 = 31 := (flush0_2 t).mp hf
  have hN : t.val < 64 := lt_of_lt_of_eq t.isLt N_0
  have ht : t.val / 32 < 2 := by omega
  show (cfg0.win 2).cut (grid0.coords t) ((dat0 (F := Ideal) (V0 m ρ) c).after 2 t) = _
  rw [after0_2]
  refine blk_sum_of_entries t ht _ (sumArr m c) fun k q => ?_
  rw [acc_sum m ρ c k q t.val t.isLt]
  show _ = ∑ n ∈ Spec.half (⟨t.val / 32, ht⟩ : Fin 2), term m c k q n
  rw [← Cert.TileSum.rowsIn_half, show 2048 * t.val + 2048 = 65536 * (t.val / 32) + 65536 by omega]

/-- Every index of the first result lies in the block some half-closing tile writes back. -/
theorem cover_sum (i : S2x16x512.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 512 := (i 2).isLt
  have hlt : 32 * (i 0).val + 31 < cfg0.N := lt_of_lt_of_eq (show 32 * (i 0).val + 31 < 64 by omega) (show cfg0.N = 64 from N_0).symm
  obtain ⟨-, -, -, e0, e1, e2, -⟩ := idx_facts ⟨32 * (i 0).val + 31, hlt⟩
  refine ⟨⟨32 * (i 0).val + 31, hlt⟩, (flush0_2 _).mpr (by show (32 * (i 0).val + 31) % 32 = 31; omega), ?_⟩
  rw [mem_blk_sum]
  intro a
  match a with
  | ⟨0, _⟩ => show win0_2.index ⟨32 * (i 0).val + 31, hlt⟩ (0 : Fin 3) * 1 ≤ (i 0).val ∧ (i 0).val < win0_2.index ⟨32 * (i 0).val + 31, hlt⟩ (0 : Fin 3) * 1 + 1
              rw [e0]; show (32 * (i 0).val + 31) / 32 * 1 ≤ (i 0).val ∧ (i 0).val < (32 * (i 0).val + 31) / 32 * 1 + 1; omega
  | ⟨1, _⟩ => show win0_2.index ⟨32 * (i 0).val + 31, hlt⟩ (1 : Fin 3) * 16 ≤ (i 1).val ∧ (i 1).val < win0_2.index ⟨32 * (i 0).val + 31, hlt⟩ (1 : Fin 3) * 16 + 16
              rw [e1]; omega
  | ⟨2, _⟩ => show win0_2.index ⟨32 * (i 0).val + 31, hlt⟩ (2 : Fin 3) * 512 ≤ (i 2).val ∧ (i 2).val < win0_2.index ⟨32 * (i 0).val + 31, hlt⟩ (2 : Fin 3) * 512 + 512
              rw [e2]; omega

/-- So the first result ends holding the sums over the halves. -/
theorem final_sum (c : Dev nD) : (dat0 (F := Ideal) (V0 m ρ) c).arrAt 2 cfg0.N = sumArr m c :=
  (dat0 (F := Ideal) (V0 m ρ) c).arrAt_eq_of_cover 2 (sumArr m c) (flushed_sum m ρ c) cover_sum

theorem sums (c : Dev nD) (h : Fin 2) (k : Fin 16) (q : Fin 512) :
    (W1 (F := Ideal) m ρ c (Proc.devRef .tc main_v0_0) : S2x16x512.Idx → EReal) (ix3 h k q)
      = ∑ n ∈ Spec.half h, Spec.oh (cArr m c (ix1 n)) k * xArr m c (ix2 n q) :=
  congrFun ((W1_arr m ρ c 2).trans (final_sum m ρ c)) (ix3 h k q)

/-! ## The sums of squares: the same argument on the second accumulator -/

/-- Tile `t`'s contribution to the sums of squares is the sum of the squared terms of the rows `[2048 t, 2048 t + 2048)`. -/
theorem tile_sumSq (c : Dev nD) (t : Fin cfg0.N) (k : Fin 16) (q : Fin 512) :
    ∑ r : Fin 2048, Spec.oh (cBlk m ρ c t (ix1 r)) k * (xBlk m ρ c t (ix2 r q) * xBlk m ρ c t (ix2 r q))
      = ∑ n ∈ rowsIn (2048 * t.val) (2048 * t.val + 2048), termSq m c k q n := by
  refine Eq.trans ?_ (Cert.TileSum.sum_tile (termSq m c k q) (tile t))
  refine Finset.sum_congr rfl fun r _ => ?_
  rw [xBlk_apply, cBlk_apply]

/-- A half's first tile leaves, in the accumulator of sums of squares, its own contribution. -/
theorem accSq_A (c : Dev nD) (k : Fin 16) (q : Fin 512) (t : Fin cfg0.N) (h0 : t.val % 32 = 0) :
    ((outsAt0 (F := Ideal) (V0 m ρ) c t.val t.isLt).2 : S1x16x512.Idx → EReal) (ix3 (0 : Fin 1) k q)
      = ∑ n ∈ rowsIn (2048 * t.val) (2048 * t.val + 2048), termSq m c k q n := by
  rw [outsAt0_A (V0 m ρ) c t h0]
  dsimp only
  refine (congrFun (StatsStep.left_A_sq (F := Ideal) c (grid0.coords t) (ms0_0 t) (hs0_0 t) (ms0_1 t) (hs0_1 t) (ms0_2 t) (hs0_2 t) (ms0_3 t) (hs0_3 t) ((hcond0_0 t).mpr h0) (xBlk m ρ c t) (cBlk m ρ c t)) (ix3 (0 : Fin 1) k q)).trans ?_
  refine (TileValue.sq_step_apply (xBlk m ρ c t) (cBlk m ρ c t) (k0_pay2 (F := Ideal)) k q).trans ?_
  rw [TileValue.reset_sq_apply, zero_add]
  exact tile_sumSq m ρ c t k q

/-- Every other tile adds its contribution to what the tile before left. -/
theorem accSq_B (c : Dev nD) (k : Fin 16) (q : Fin 512) (t : Fin cfg0.N) (h0 : ¬t.val % 32 = 0) :
    ((outsAt0 (F := Ideal) (V0 m ρ) c t.val t.isLt).2 : S1x16x512.Idx → EReal) (ix3 (0 : Fin 1) k q)
      = ((outsAt0 (F := Ideal) (V0 m ρ) c (t.val - 1) (Nat.lt_of_le_of_lt (Nat.sub_le t.val 1) t.isLt)).2 : S1x16x512.Idx → EReal) (ix3 (0 : Fin 1) k q)
        + ∑ n ∈ rowsIn (2048 * t.val) (2048 * t.val + 2048), termSq m c k q n := by
  rw [outsAt0_B (V0 m ρ) c t h0]
  dsimp only
  refine (congrFun (StatsStep.left_B_sq (F := Ideal) c (grid0.coords t) (ms0_0 t) (hs0_0 t) (ms0_1 t) (hs0_1 t) (ms0_2 t) (hs0_2 t) (ms0_3 t) (hs0_3 t) (fun h => h0 ((hcond0_0 t).mp h)) (xBlk m ρ c t) (cBlk m ρ c t)
    (outsAt0 (F := Ideal) (V0 m ρ) c (t.val - 1) (Nat.lt_of_le_of_lt (Nat.sub_le t.val 1) t.isLt)).1
    (outsAt0 (F := Ideal) (V0 m ρ) c (t.val - 1) (Nat.lt_of_le_of_lt (Nat.sub_le t.val 1) t.isLt)).2) (ix3 (0 : Fin 1) k q)).trans ?_
  refine (TileValue.sq_step_apply (xBlk m ρ c t) (cBlk m ρ c t) _ k q).trans ?_
  rw [tile_sumSq m ρ c t k q]

/-- After tile `n` the accumulator of sums of squares holds the sum of the squared terms over the rows from the
    start of `n`'s half to the end of tile `n`. -/
theorem acc_sumSq (c : Dev nD) (k : Fin 16) (q : Fin 512) : ∀ (n : ℕ) (hn : n < cfg0.N),
    ((outsAt0 (F := Ideal) (V0 m ρ) c n hn).2 : S1x16x512.Idx → EReal) (ix3 (0 : Fin 1) k q)
      = ∑ j ∈ rowsIn (65536 * (n / 32)) (2048 * n + 2048), termSq m c k q j
  | 0, hn => accSq_A m ρ c k q ⟨0, hn⟩ rfl
  | n + 1, hn => by
    by_cases h0 : (n + 1) % 32 = 0
    · rw [show 65536 * ((n + 1) / 32) = 2048 * (n + 1) by omega]
      exact accSq_A m ρ c k q ⟨n + 1, hn⟩ h0
    · refine (accSq_B m ρ c k q ⟨n + 1, hn⟩ h0).trans ?_
      show ((outsAt0 (F := Ideal) (V0 m ρ) c n (Nat.lt_of_succ_lt hn)).2 : S1x16x512.Idx → EReal) (ix3 (0 : Fin 1) k q)
          + ∑ j ∈ rowsIn (2048 * (n + 1)) (2048 * (n + 1) + 2048), termSq m c k q j
        = ∑ j ∈ rowsIn (65536 * ((n + 1) / 32)) (2048 * (n + 1) + 2048), termSq m c k q j
      rw [acc_sumSq c k q n (Nat.lt_of_succ_lt hn), show 65536 * ((n + 1) / 32) = 65536 * (n / 32) by omega,
        show 2048 * n + 2048 = 2048 * (n + 1) by omega]
      exact Cert.TileSum.sum_rowsIn_split _ (by omega) (by omega)

/-- What the second result ends holding: entry `(h, k, q)` is the sum of the squared terms over half `h`. -/
def halfSumSq (c : Dev nD) (h : Fin 2) (k : Fin 16) (q : Fin 512) : EReal := ∑ n ∈ Spec.half h, termSq m c k q n
def sumSqArr (c : Dev nD) : S2x16x512.Idx → EReal := fun i => halfSumSq m c (i 0) (i 1) (i 2)

/-- An index of the second result lies in tile `t`'s block iff each coordinate lies in the block's range on its axis. -/
theorem mem_blk_sumSq (t : Fin cfg0.N) (i : S2x16x512.Idx) :
    i ∈ ((cfg0.win 3).blk t).view.set ↔ ∀ a : Fin 3, win0_3.index t a * S1x16x512.size a ≤ (i a).val ∧ (i a).val < win0_3.index t a * S1x16x512.size a + S1x16x512.size a := by
  show i ∈ ((View.whole main_v0_1).slice (win0_3.rect t)).set ↔ _
  rw [View.set_slice_whole, Rect.mem_set_unit]
  exact Iff.rfl

/-- A block `X` whose entry `(0, k, q)` is entry `(t / 32, k, q)` of an array `G` is what block `t` of the second
    result reads of `G`. -/
theorem blk_sumSq_of_entries (t : Fin cfg0.N) (ht : t.val / 32 < 2) (X : S1x16x512.Idx → EReal) (G : S2x16x512.Idx → EReal)
    (hX : ∀ (k : Fin 16) (q : Fin 512), X (ix3 (0 : Fin 1) k q) = G (ix3 (⟨t.val / 32, ht⟩ : Fin 2) k q)) :
    (cfg0.win 3).cut (grid0.coords t) X = ((cfg0.win 3).blk t).view.read (Elt Ideal) G := by
  obtain ⟨-, -, -, -, -, -, e0, e1, e2⟩ := idx_facts t
  funext y
  obtain ⟨u, k, q, rfl⟩ : ∃ (u : Fin 1) (k : Fin 16) (q : Fin 512), y = ix3 u k q := ⟨y 0, y 1, y 2, eq_ix3 (n0 := 1) (n1 := 16) (n2 := 512) y⟩
  obtain rfl : u = 0 := Subsingleton.elim _ _
  have hemb : ((cfg0.win 3).blk t).view.emb (ix3 (0 : Fin 1) k q) = ix3 (⟨t.val / 32, ht⟩ : Fin 2) k q := by
    funext a; apply Fin.ext
    match a with
    | ⟨0, _⟩ => show win0_3.index t (0 : Fin 3) * 1 + 1 * 0 = t.val / 32; rw [e0]; omega
    | ⟨1, _⟩ => show win0_3.index t (1 : Fin 3) * 16 + 1 * k.val = k.val; rw [e1]; omega
    | ⟨2, _⟩ => show win0_3.index t (2 : Fin 3) * 512 + 1 * q.val = q.val; rw [e2]; omega
  show X (ix3 (0 : Fin 1) k q) = G (((cfg0.win 3).blk t).view.emb (ix3 (0 : Fin 1) k q))
  rw [hemb]
  exact hX k q

/-- The tile that closes a half writes back block `t / 32` of the sums of squares over that half. -/
theorem flushed_sumSq (c : Dev nD) (t : Fin cfg0.N) (hf : (cfg0.win 3).flush t = true) :
    (dat0 (F := Ideal) (V0 m ρ) c).flushed 3 t = ((cfg0.win 3).blk t).view.read (Elt Ideal) (sumSqArr m c) := by
  have h31 : t.val % 32 = 31 := (flush0_3 t).mp hf
  have hN : t.val < 64 := lt_of_lt_of_eq t.isLt N_0
  have ht : t.val / 32 < 2 := by omega
  show (cfg0.win 3).cut (grid0.coords t) ((dat0 (F := Ideal) (V0 m ρ) c).after 3 t) = _
  rw [after0_3]
  refine blk_sumSq_of_entries t ht _ (sumSqArr m c) fun k q => ?_
  rw [acc_sumSq m ρ c k q t.val t.isLt]
  show _ = ∑ n ∈ Spec.half (⟨t.val / 32, ht⟩ : Fin 2), termSq m c k q n
  rw [← Cert.TileSum.rowsIn_half, show 2048 * t.val + 2048 = 65536 * (t.val / 32) + 65536 by omega]

/-- Every index of the second result lies in the block some half-closing tile writes back. -/
theorem cover_sumSq (i : S2x16x512.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 512 := (i 2).isLt
  have hlt : 32 * (i 0).val + 31 < cfg0.N := lt_of_lt_of_eq (show 32 * (i 0).val + 31 < 64 by omega) (show cfg0.N = 64 from N_0).symm
  obtain ⟨-, -, -, -, -, -, e0, e1, e2⟩ := idx_facts ⟨32 * (i 0).val + 31, hlt⟩
  refine ⟨⟨32 * (i 0).val + 31, hlt⟩, (flush0_3 _).mpr (by show (32 * (i 0).val + 31) % 32 = 31; omega), ?_⟩
  rw [mem_blk_sumSq]
  intro a
  match a with
  | ⟨0, _⟩ => show win0_3.index ⟨32 * (i 0).val + 31, hlt⟩ (0 : Fin 3) * 1 ≤ (i 0).val ∧ (i 0).val < win0_3.index ⟨32 * (i 0).val + 31, hlt⟩ (0 : Fin 3) * 1 + 1
              rw [e0]; show (32 * (i 0).val + 31) / 32 * 1 ≤ (i 0).val ∧ (i 0).val < (32 * (i 0).val + 31) / 32 * 1 + 1; omega
  | ⟨1, _⟩ => show win0_3.index ⟨32 * (i 0).val + 31, hlt⟩ (1 : Fin 3) * 16 ≤ (i 1).val ∧ (i 1).val < win0_3.index ⟨32 * (i 0).val + 31, hlt⟩ (1 : Fin 3) * 16 + 16
              rw [e1]; omega
  | ⟨2, _⟩ => show win0_3.index ⟨32 * (i 0).val + 31, hlt⟩ (2 : Fin 3) * 512 ≤ (i 2).val ∧ (i 2).val < win0_3.index ⟨32 * (i 0).val + 31, hlt⟩ (2 : Fin 3) * 512 + 512
              rw [e2]; omega

/-- So the second result ends holding the sums of squares over the halves. -/
theorem final_sumSq (c : Dev nD) : (dat0 (F := Ideal) (V0 m ρ) c).arrAt 3 cfg0.N = sumSqArr m c :=
  (dat0 (F := Ideal) (V0 m ρ) c).arrAt_eq_of_cover 3 (sumSqArr m c) (flushed_sumSq m ρ c) cover_sumSq

theorem sumsqs (c : Dev nD) (h : Fin 2) (k : Fin 16) (q : Fin 512) :
    (W1 (F := Ideal) m ρ c (Proc.devRef .tc main_v0_1) : S2x16x512.Idx → EReal) (ix3 h k q)
      = ∑ n ∈ Spec.half h, Spec.oh (cArr m c (ix1 n)) k * (xArr m c (ix2 n q) * xArr m c (ix2 n q)) :=
  congrFun ((W1_arr m ρ c 3).trans (final_sumSq m ρ c)) (ix3 h k q)

end Cert.KernelIdeal.StatsValue

end
-- ==== Proof.OneHotSelect.lean ====
import proofs.«429366_j62783831933726_3_alg».proof.Proof.Gen.KernelIdeal.Skeleton
import proofs.«429366_j62783831933726_3_alg».proof.Proof.Spec
import Idealize.ShloMosaic.Lib.ValueIdx
import Idealize.ShloMosaic.Lib.Pipeline.Value
import Idealize.ShloMosaic.PureOps.Ideal.Laws

/-!
# One tile of the second pass, entry by entry

A tile holds 1024 rows of data, their 1024 labels and the four 16 × 512 tables whole. The tile's result at
`(p, q)` is the data entry times the sum of two table selections plus the sum of two more, where a selection
is the product of the tile's one-hot matrix (row `p`: `1` at the clamped label of row `p`, `0` elsewhere) with a
table, read at `(p, q)`: a sum over the 16 contexts onto a zero accumulator.
-/

noncomputable section

open scoped BigOperators

namespace Cert.KernelIdeal.OneHotSelect

open Cert.KernelIdeal Cert.KernelIdeal.Gen Idealize.ShloMosaic Idealize.ShloMosaic.ValueIdx

/-! ## The product's operand indices, axis by axis

The product contracts axis 1 of the one-hot matrix with axis 0 of a table; the matrix's axis 0 is the
result's row and the table's axis 1 the result's column. -/

theorem lhs_axis0 (i : S1024x512.Idx) (k : dot_S1024x16_S16x512_S1024x512_1_0_0_1_n_n.contr.Idx) :
    (dot_S1024x16_S16x512_S1024x512_1_0_0_1_n_n.lhsIdx i k 0).val = (i 0).val := by
  unfold DotDims.lhsIdx
  rw [dif_neg (show ¬(0 : Fin S1024x16.rank) ∈ dot_S1024x16_S16x512_S1024x512_1_0_0_1_n_n.lhsBatch by decide),
    dif_pos (show (0 : Fin S1024x16.rank) ∈ dot_S1024x16_S16x512_S1024x512_1_0_0_1_n_n.lhsNonContracting by decide)]
  rfl

theorem lhs_axis1 (i : S1024x512.Idx) (k : dot_S1024x16_S16x512_S1024x512_1_0_0_1_n_n.contr.Idx) :
    (dot_S1024x16_S16x512_S1024x512_1_0_0_1_n_n.lhsIdx i k 1).val = (k ⟨0, by decide⟩).val :=
  dot_S1024x16_S16x512_S1024x512_1_0_0_1_n_n.lhsIdx_val_of_single rfl i k

theorem rhs_axis0 (i : S1024x512.Idx) (k : dot_S1024x16_S16x512_S1024x512_1_0_0_1_n_n.contr.Idx) :
    (dot_S1024x16_S16x512_S1024x512_1_0_0_1_n_n.rhsIdx i k 0).val = (k ⟨0, by decide⟩).val :=
  dot_S1024x16_S16x512_S1024x512_1_0_0_1_n_n.rhsIdx_val_of_single rfl i k

theorem rhs_axis1 (i : S1024x512.Idx) (k : dot_S1024x16_S16x512_S1024x512_1_0_0_1_n_n.contr.Idx) :
    (dot_S1024x16_S16x512_S1024x512_1_0_0_1_n_n.rhsIdx i k 1).val = (i 1).val := by
  unfold DotDims.rhsIdx
  rw [dif_neg (show ¬(1 : Fin S16x512.rank) ∈ dot_S1024x16_S16x512_S1024x512_1_0_0_1_n_n.rhsBatch by decide),
    dif_pos (show (1 : Fin S16x512.rank) ∈ dot_S1024x16_S16x512_S1024x512_1_0_0_1_n_n.rhsNonContracting by decide)]
  rfl

/-- A 1024 × 16 matrix times a 16 × 512 table onto the zero accumulator, at `(p, q)`: zero plus the sum over the
    16 contexts of the matrix's row `p` against the table's column `q`. -/
theorem select_apply (A : FVec Ideal S1024x16 .f32) (T : FVec Ideal S16x512 .f32) (p : Fin 1024) (q : Fin 512) :
    matmul dot_S1024x16_S16x512_S1024x512_1_0_0_1_n_n none A T (constant (F := Ideal) S1024x512 .f32 0x00000000#32) (ix2 p q)
      = 0 + ∑ k : Fin 16, A (ix2 p k) * T (ix2 k q) := by
  simp only [matmul]
  rw [Ideal.matmul_apply, constant_apply, Ideal.ofBits_zero_f32,
    ← Equiv.sum_comp (contrEquiv1 dot_S1024x16_S16x512_S1024x512_1_0_0_1_n_n 16 rfl rfl).symm]
  refine congrArg (0 + ·) (Finset.sum_congr rfl fun k _ => ?_)
  have hk := contrEquiv1_symm_val dot_S1024x16_S16x512_S1024x512_1_0_0_1_n_n 16 rfl rfl k
  have el : dot_S1024x16_S16x512_S1024x512_1_0_0_1_n_n.lhsIdx (ix2 p q)
      ((contrEquiv1 dot_S1024x16_S16x512_S1024x512_1_0_0_1_n_n 16 rfl rfl).symm k) = ix2 p k :=
    funext fun a => Fin.ext (by
      match a with
      | ⟨0, _⟩ => exact lhs_axis0 _ _
      | ⟨1, _⟩ => exact (lhs_axis1 _ _).trans hk)
  have er : dot_S1024x16_S16x512_S1024x512_1_0_0_1_n_n.rhsIdx (ix2 p q)
      ((contrEquiv1 dot_S1024x16_S16x512_S1024x512_1_0_0_1_n_n 16 rfl rfl).symm k) = ix2 k q :=
    funext fun a => Fin.ext (by
      match a with
      | ⟨0, _⟩ => exact (rhs_axis0 _ _).trans hk
      | ⟨1, _⟩ => exact rhs_axis1 _ _)
  rw [el, er]

/-- The tile's one-hot matrix at `(p, k)`: the labels clamped into `[0, 15]`, laid along the rows, compared with the
    column number, the comparison's bit widened and read as a signed integer: `Spec.oh` of row `p`'s label at `k`. -/
theorem onehot_apply (x1 : Vec Ideal S1024 .i32) (p : Fin 1024) (k : Fin 16) :
    (sitofp (F := Ideal) .f32 (extui 32 (cmpi .eq
        (broadcastTo S1024x16 (shapeCast S1024x1 (minsi (broadcast S1024 15#32) (maxsi (broadcast S1024 0#32) x1)) shapeCasts_S1024_S1024x1) broadcasts_S1024x1_S1024x16)
        (iota .tc S1024x16 32 [1] iota_S1024x16_d1_w32)) natLt_1_32) : FVec Ideal S1024x16 .f32) (ix2 p k)
      = Spec.oh (x1 (ix1 p)) k := by
  rw [sitofp_apply, extui_apply]
  have hb : broadcastTo S1024x16 (shapeCast S1024x1 (minsi (broadcast S1024 15#32) (maxsi (broadcast S1024 0#32) x1)) shapeCasts_S1024_S1024x1)
      broadcasts_S1024x1_S1024x16 (ix2 p k) = Spec.clip (x1 (ix1 p)) := by
    refine (broadcastTo_apply _ _ (ix2 p k) (ix2 p (0 : Fin 1)) (fun a => ?_)).trans ?_
    · match a with
      | ⟨0, _⟩ => rfl
      | ⟨1, _⟩ => rfl
    · refine (shapeCast_apply _ _ (ix2 p (0 : Fin 1)) (ix1 p) ?_).trans rfl
      rw [Shape.rowMajor_val_one, Shape.rowMajor_val_two]
      show p.val = p.val * 1 + 0
      omega
  have hi : iota .tc S1024x16 32 [1] iota_S1024x16_d1_w32 (ix2 p k) = BitVec.ofNat 32 k.val :=
    iota_single_apply .tc S1024x16 32 1 iota_S1024x16_d1_w32 (ix2 p k)
  show FloatOps.sitofp (F := Ideal) .f32 ((IntOp.cmpi .eq _ _).setWidth 32) = _
  rw [hb, hi]
  rfl

/-- The tile's one-hot matrix times a table onto the zero accumulator, at `(p, q)`: zero plus the sum over the 16
    contexts of `Spec.oh` of row `p`'s label against the table's column `q`. -/
theorem select_onehot_apply (x1 : Vec Ideal S1024 .i32) (T : FVec Ideal S16x512 .f32) (p : Fin 1024) (q : Fin 512) :
    matmul dot_S1024x16_S16x512_S1024x512_1_0_0_1_n_n none
        (sitofp (F := Ideal) .f32 (extui 32 (cmpi .eq
          (broadcastTo S1024x16 (shapeCast S1024x1 (minsi (broadcast S1024 15#32) (maxsi (broadcast S1024 0#32) x1)) shapeCasts_S1024_S1024x1) broadcasts_S1024x1_S1024x16)
          (iota .tc S1024x16 32 [1] iota_S1024x16_d1_w32)) natLt_1_32))
        T (constant (F := Ideal) S1024x512 .f32 0x00000000#32) (ix2 p q)
      = 0 + ∑ k : Fin 16, Spec.oh (x1 (ix1 p)) k * T (ix2 k q) :=
  (select_apply _ T p q).trans (congrArg (0 + ·) (Finset.sum_congr rfl fun k _ => by rw [onehot_apply]))

/-- THE TILE'S RESULT at `(p, q)`: `Spec.applyRow` of the data entry, row `p`'s label and column `q` of the four tables. -/
theorem pay_apply (x0 : Vec Ideal S1024x512 .f32) (x1 : Vec Ideal S1024 .i32) (x2 x3 x4 x5 : Vec Ideal S16x512 .f32)
    (p : Fin 1024) (q : Fin 512) :
    k1_pay1 x0 x1 x2 x3 x4 x5 (ix2 p q)
      = Spec.applyRow (x0 (ix2 p q)) (x1 (ix1 p)) (fun k => x2 (ix2 k q)) (fun k => x3 (ix2 k q))
          (fun k => x4 (ix2 k q)) (fun k => x5 (ix2 k q)) := by
  have hs : ∀ x : Vec Ideal S16x512 .f32, shapeCast S16x512 x shapeCasts_S16x512_S16x512 = x := fun x => shapeCast_self x _
  unfold k1_pay1
  dsimp only
  rw [hs x2, hs x3, hs x4, hs x5]
  rw [addf_apply, mulf_apply, addf_apply, addf_apply, select_onehot_apply, select_onehot_apply, select_onehot_apply, select_onehot_apply]
  rfl

end Cert.KernelIdeal.OneHotSelect

end
-- ==== Proof.ApplyValue.lean ====
import proofs.«429366_j62783831933726_3_alg».proof.Proof.Gen.KernelIdeal.Frame
import proofs.«429366_j62783831933726_3_alg».proof.Proof.Spec
import proofs.«429366_j62783831933726_3_alg».proof.Proof.OneHotSelect
import Idealize.ShloMosaic.Lib.ValueIdx
import Idealize.ShloMosaic.Lib.Pipeline.Value
import Idealize.ShloMosaic.PureOps.Ideal.Laws

/-!
# What the second pass leaves: every entry of the result from the tables it was handed

The second pass walks 128 tiles of 1024 rows. Entry `(n, q)` of its result is the data entry times the one-hot
selection (by row `n`'s label) of the two weight tables it reads, summed, plus the selection of the two offset
tables, summed: `Spec.applyRow` of the entry, the label and column `q` of the four tables as the pass finds them.
-/

noncomputable section

open scoped BigOperators

namespace Cert.KernelIdeal.ApplyValue

open Cert.KernelIdeal Cert.KernelIdeal.Gen Idealize.ShloMosaic Idealize.ShloMosaic.ValueIdx Idealize.ShloMosaic.TcCoe Idealize.SL.Sem
open Idealize.ShloMosaic.Pipeline (Dat)

/-- The second pass's whole result as ONE function of the six arrays it reads: entry `i` is `Spec.applyRow` of the
    data entry at `i`, the label of `i`'s row and `i`'s column of the four tables. -/
def applied (a0 : S131072x512.Idx → EReal) (a1 : S131072.Idx → BitVec 32) (a2 a3 a4 a5 : S16x512.Idx → EReal) :
    S131072x512.Idx → EReal := fun i =>
  Spec.applyRow (a0 i) (a1 (ix1 (i 0))) (fun k => a2 (ix2 k (i 1))) (fun k => a3 (ix2 k (i 1)))
    (fun k => a4 (ix2 k (i 1))) (fun k => a5 (ix2 k (i 1)))

/-- A tile's result is the tile of `applied` that an embedding `e` of tile indices into array indices names, once
    each block the tile reads is the part of its array that `e` names: the data entry at `e j`, the label of
    `e j`'s row, the tables at `e j`'s column. -/
theorem tile_eq (x0 : Vec Ideal S1024x512 .f32) (x1 : Vec Ideal S1024 .i32) (x2 x3 x4 x5 : Vec Ideal S16x512 .f32)
    (a0 : S131072x512.Idx → EReal) (a1 : S131072.Idx → BitVec 32) (a2 a3 a4 a5 : S16x512.Idx → EReal)
    (e : S1024x512.Idx → S131072x512.Idx)
    (h0 : ∀ (p : Fin 1024) (q : Fin 512), x0 (ix2 p q) = a0 (e (ix2 p q)))
    (h1 : ∀ (p : Fin 1024) (q : Fin 512), x1 (ix1 p) = a1 (ix1 (e (ix2 p q) 0)))
    (h2 : ∀ (p : Fin 1024) (q : Fin 512) (k : Fin 16), x2 (ix2 k q) = a2 (ix2 k (e (ix2 p q) 1)))
    (h3 : ∀ (p : Fin 1024) (q : Fin 512) (k : Fin 16), x3 (ix2 k q) = a3 (ix2 k (e (ix2 p q) 1)))
    (h4 : ∀ (p : Fin 1024) (q : Fin 512) (k : Fin 16), x4 (ix2 k q) = a4 (ix2 k (e (ix2 p q) 1)))
    (h5 : ∀ (p : Fin 1024) (q : Fin 512) (k : Fin 16), x5 (ix2 k q) = a5 (ix2 k (e (ix2 p q) 1))) :
    k1_pay1 x0 x1 x2 x3 x4 x5 = fun j => applied a0 a1 a2 a3 a4 a5 (e j) := by
  funext j
  obtain ⟨p, q, rfl⟩ : ∃ (p : Fin 1024) (q : Fin 512), j = ix2 p q := ⟨j 0, j 1, eq_ix2 j⟩
  rw [OneHotSelect.pay_apply]
  unfold applied
  rw [h0 p q, h1 p q]
  simp only [h2 p q, h3 p q, h4 p q, h5 p q]

/-! ## From tiles to the array

Point `t` of the grid reads rows `[1024 t, 1024 t + 1024)` of the data and of the labels and the four tables whole,
and writes the same rows of the result. -/

section AtEntry

-- the six arrays as the pass finds them
variable (V : (c : Dev nD) → (b : Ref sig .tc) → Buf (Elt Ideal) ((c : Thread nD τ).loc b))

/-- The zero offsets of a whole rank-2 block, and of a whole rank-1 block. -/
theorem zeros2 : (![0, 0] : Fin 2 → Nat) = fun _ => 0 := funext fun a => by fin_cases a <;> rfl
theorem zeros1 : (![0] : Fin 1 → Nat) = fun _ => 0 := funext fun a => by fin_cases a; rfl

/-- The index maps over the grid: the data, the labels and the result move by one block of rows per point, the
    tables stay. -/
theorem index_facts : ∀ t : Fin cfg1.N,
    win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of `applied` of the six arrays. -/
theorem flushed_eq (c : Dev nD) (t : Fin cfg1.N) :
    (dat1 V c).flushed 6 t = ((cfg1.win 6).blk t).view.read (Elt Ideal)
      (applied (V c main_arg0) (V c main_arg1) (V c main_v37) (V c main_v38) (V c main_v40) (V c main_v41)) := by
  show (cfg1.win 6).cut (grid1.coords t) ((dat1 V c).after 6 t) = _
  rw [after1_6]
  unfold out1_6
  rw [View.canon_unit_zero zeros2]
  simp only [View.ld_unit_zero (S := S1024x512) zeros2, View.ld_unit_zero (S := S1024) zeros1,
    View.ld_unit_zero (S := S16x512) zeros2]
  obtain ⟨e00, e01, e10, e20, e21, e30, e31, e40, e41, e50, e51, e60, e61⟩ := index_facts t
  refine tile_eq (iblk1 V c 0 t) (iblk1 V c 1 t) (iblk1 V c 2 t) (iblk1 V c 3 t) (iblk1 V c 4 t) (iblk1 V c 5 t)
    (V c main_arg0) (V c main_arg1) (V c main_v37) (V c main_v38) (V c main_v40) (V c main_v41)
    (fun j => ((cfg1.win 6).blk t).view.emb j) ?_ ?_ ?_ ?_ ?_ ?_
  · intro p q
    show V c main_arg0 (((cfg1.win 0).blk t).view.emb (ix2 p q)) = V c main_arg0 (((cfg1.win 6).blk t).view.emb (ix2 p q))
    refine congrArg _ (funext fun a => Fin.ext ?_)
    match a with
    | ⟨0, _⟩ => show win1_0.index t (0 : Fin 2) * 1024 + 1 * p.val = win1_6.index t (0 : Fin 2) * 1024 + 1 * p.val; omega
    | ⟨1, _⟩ => show win1_0.index t (1 : Fin 2) * 512 + 1 * q.val = win1_6.index t (1 : Fin 2) * 512 + 1 * q.val; omega
  · intro p q
    show V c main_arg1 (((cfg1.win 1).blk t).view.emb (ix1 p)) = V c main_arg1 (ix1 (((cfg1.win 6).blk t).view.emb (ix2 p q) 0))
    refine congrArg _ (funext fun a => Fin.ext ?_)
    match a with
    | ⟨0, _⟩ => show win1_1.index t (0 : Fin 1) * 1024 + 1 * p.val = win1_6.index t (0 : Fin 2) * 1024 + 1 * p.val; omega
  · intro p q k
    show V c main_v37 (((cfg1.win 2).blk t).view.emb (ix2 k q)) = V c main_v37 (ix2 k (((cfg1.win 6).blk t).view.emb (ix2 p q) 1))
    refine congrArg _ (funext fun a => Fin.ext ?_)
    match a with
    | ⟨0, _⟩ => show win1_2.index t (0 : Fin 2) * 16 + 1 * k.val = k.val; omega
    | ⟨1, _⟩ => show win1_2.index t (1 : Fin 2) * 512 + 1 * q.val = win1_6.index t (1 : Fin 2) * 512 + 1 * q.val; omega
  · intro p q k
    show V c main_v38 (((cfg1.win 3).blk t).view.emb (ix2 k q)) = V c main_v38 (ix2 k (((cfg1.win 6).blk t).view.emb (ix2 p q) 1))
    refine congrArg _ (funext fun a => Fin.ext ?_)
    match a with
    | ⟨0, _⟩ => show win1_3.index t (0 : Fin 2) * 16 + 1 * k.val = k.val; omega
    | ⟨1, _⟩ => show win1_3.index t (1 : Fin 2) * 512 + 1 * q.val = win1_6.index t (1 : Fin 2) * 512 + 1 * q.val; omega
  · intro p q k
    show V c main_v40 (((cfg1.win 4).blk t).view.emb (ix2 k q)) = V c main_v40 (ix2 k (((cfg1.win 6).blk t).view.emb (ix2 p q) 1))
    refine congrArg _ (funext fun a => Fin.ext ?_)
    match a with
    | ⟨0, _⟩ => show win1_4.index t (0 : Fin 2) * 16 + 1 * k.val = k.val; omega
    | ⟨1, _⟩ => show win1_4.index t (1 : Fin 2) * 512 + 1 * q.val = win1_6.index t (1 : Fin 2) * 512 + 1 * q.val; omega
  · intro p q k
    show V c main_v41 (((cfg1.win 5).blk t).view.emb (ix2 k q)) = V c main_v41 (ix2 k (((cfg1.win 6).blk t).view.emb (ix2 p q) 1))
    refine congrArg _ (funext fun a => Fin.ext ?_)
    match a with
    | ⟨0, _⟩ => show win1_5.index t (0 : Fin 2) * 16 + 1 * k.val = k.val; omega
    | ⟨1, _⟩ => show win1_5.index t (1 : Fin 2) * 512 + 1 * q.val = win1_6.index t (1 : Fin 2) * 512 + 1 * q.val; omega

/-- An index of the result is in point `t`'s block iff each coordinate is in the block's range on its axis. -/
theorem mem_blk (t : Fin cfg1.N) (i : S131072x512.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v42).slice (win1_6.rect t)).set ↔ _
  rw [View.set_slice_whole, Rect.mem_set_unit]
  exact Iff.rfl

/-- Every entry of the result is written: row `n` by point `n / 1024`. -/
theorem cover (i : S131072x512.Idx) :
    ∃ t : Fin cfg1.N, (cfg1.win 6).flush t = true ∧ i ∈ ((cfg1.win 6).blk t).view.set := by
  have hi0 : (i 0).val < 131072 := (i 0).isLt
  have hi1 : (i 1).val < 512 := (i 1).isLt
  have hN : cfg1.N = 128 := N_1
  obtain ⟨t, ht⟩ : ∃ t : Fin cfg1.N, t.val = (i 0).val / 1024 := ⟨⟨(i 0).val / 1024, by rw [hN]; omega⟩, rfl⟩
  obtain ⟨e00, e01, e10, e20, e21, e30, e31, e40, e41, e50, e51, e60, e61⟩ := index_facts t
  refine ⟨t, flush1_6 t, ?_⟩
  rw [mem_blk]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 512 ≤ (i 1).val ∧ (i 1).val < win1_6.index t (1 : Fin 2) * 512 + 512; omega

/-- THE RESULT ARRAY after the pass is `applied` of the six arrays as the pass finds them. -/
theorem final (c : Dev nD) :
    (dat1 V c).arrAt 6 cfg1.N
      = applied (V c main_arg0) (V c main_arg1) (V c main_v37) (V c main_v38) (V c main_v40) (V c main_v41) :=
  (dat1 V c).arrAt_eq_of_cover 6 _ (fun t _ => flushed_eq V c t) cover

end AtEntry

/-! ## The pass in the run -/

variable (m : (ℓ : Loc nD τ sig) → Buf (Elt Ideal) ℓ) (ρ : Dev nD → PrngReg)

/-- The data array as the pass finds it is the launch's: nothing before the pass writes it. -/
theorem entry_arg0 (c : Dev nD) :
    W6 (F := Ideal) m ρ c (Proc.devRef .tc main_arg0) = m ((c : Thread nD τ).loc main_arg0) :=
  ((W7_arr m ρ c 0).trans (((dat1 (V6 m ρ) c).arrAt_in 0 rfl _).trans (A_eq1 (V6 m ρ) c 0))).symm.trans
    (W7_main_arg0 m ρ c)

/-- The label array as the pass finds it is the launch's. -/
theorem entry_arg1 (c : Dev nD) :
    W6 (F := Ideal) m ρ c (Proc.devRef .tc main_arg1) = m ((c : Thread nD τ).loc main_arg1) :=
  ((W7_arr m ρ c 1).trans (((dat1 (V6 m ρ) c).arrAt_in 1 rfl _).trans (A_eq1 (V6 m ρ) c 1))).symm.trans
    (W7_main_arg1 m ρ c)

/-- ENTRY `(n, q)` OF THE RESULT the pass leaves: `Spec.applyRow` of the launch's data entry, row `n`'s label in the
    launch's labels, and column `q` of the four tables as the pass finds them. -/
theorem result (c : Dev nD) (n : Fin 131072) (q : Fin 512) :
    (W7 (F := Ideal) m ρ c (Proc.devRef .tc main_v42) : S131072x512.Idx → EReal) (ix2 n q)
      = Spec.applyRow ((m ((c.tc : Thread nD τ).loc main_arg0) : S131072x512.Idx → EReal) (ix2 n q))
          ((m ((c.tc : Thread nD τ).loc main_arg1) : S131072.Idx → BitVec 32) (ix1 n))
          (fun k => (W6 (F := Ideal) m ρ c (Proc.devRef .tc main_v37) : S16x512.Idx → EReal) (ix2 k q))
          (fun k => (W6 (F := Ideal) m ρ c (Proc.devRef .tc main_v38) : S16x512.Idx → EReal) (ix2 k q))
          (fun k => (W6 (F := Ideal) m ρ c (Proc.devRef .tc main_v40) : S16x512.Idx → EReal) (ix2 k q))
          (fun k => (W6 (F := Ideal) m ρ c (Proc.devRef .tc main_v41) : S16x512.Idx → EReal) (ix2 k q)) := by
  refine (congrFun ((W7_arr m ρ c 6).trans (final (V6 m ρ) c)) (ix2 n q)).trans ?_
  show Spec.applyRow ((W6 (F := Ideal) m ρ c (Proc.devRef .tc main_arg0) : S131072x512.Idx → EReal) (ix2 n q))
      ((W6 (F := Ideal) m ρ c (Proc.devRef .tc main_arg1) : S131072.Idx → BitVec 32) (ix1 n)) _ _ _ _ = _
  rw [entry_arg0, entry_arg1]

end Cert.KernelIdeal.ApplyValue

end
-- ==== Proof.Bridge.lean ====
import proofs.«429366_j62783831933726_3_alg».proof.Proof.Gen.KernelIdeal.Frame
import proofs.«429366_j62783831933726_3_alg».proof.Proof.Spec
import proofs.«429366_j62783831933726_3_alg».proof.Proof.OneHot
import proofs.«429366_j62783831933726_3_alg».proof.Proof.LayoutReads
import proofs.«429366_j62783831933726_3_alg».proof.Proof.ScatterCount
import proofs.«429366_j62783831933726_3_alg».proof.Proof.Algebra
import proofs.«429366_j62783831933726_3_alg».proof.Proof.HostTables
import proofs.«429366_j62783831933726_3_alg».proof.Proof.StatsValue
import proofs.«429366_j62783831933726_3_alg».proof.Proof.ApplyValue
import Idealize.ShloMosaic.Lib.ValueIdx
import Idealize.ShloMosaic.PureOps.Ideal.Laws

/-!
# The kernel's result is `Spec.out`

The first pass leaves, per half of the rows, the one-hot-weighted column sums and sums of squares; with labels in
range these are the sums over the rows of each label in that half, and the two halves add up to the sums over all
rows of the label. The count is the scatter's. So the host arithmetic between the passes computes the
specification's weight and offset on every context that has a row, and the second pass — which reads each table
as the table plus (the table minus itself) — returns `x · w + b` at the row's context, because those table
entries are real numbers.
-/

noncomputable section

open scoped BigOperators

namespace Cert.KernelIdeal.Bridge

open Cert.KernelIdeal Cert.KernelIdeal.Gen Idealize.ShloMosaic Idealize.ShloMosaic.ValueIdx Idealize.ShloMosaic.TcCoe Idealize.SL.Sem
open Cert.KernelIdeal.HostTables Cert.Lib

variable (m : (ℓ : Loc nD τ sig) → Buf (Elt Ideal) ℓ) (ρ : Dev nD → PrngReg)

/-- The five inputs as launched, at their literal types. -/
abbrev xA (c : Dev nD) : S131072x512.Idx → EReal := m ((c.tc : Thread nD τ).loc main_arg0)
abbrev cA (c : Dev nD) : S131072.Idx → BitVec 32 := m ((c.tc : Thread nD τ).loc main_arg1)
abbrev gA (c : Dev nD) : S16x512.Idx → EReal := m ((c.tc : Thread nD τ).loc main_arg2)
abbrev bA (c : Dev nD) : S16x512.Idx → EReal := m ((c.tc : Thread nD τ).loc main_arg3)
abbrev pA (c : Dev nD) : S16.Idx → EReal := m ((c.tc : Thread nD τ).loc main_arg4)

/-! ## The inputs are still in place after the first pass -/

theorem W1_arg1 (c : Dev nD) : rCtx (W1 (F := Ideal) m ρ c) = cA m c :=
  (W1_arr m ρ c 1).trans (((dat0 (V0 m ρ) c).arrAt_in 1 rfl _).trans (A_eq0 (V0 m ρ) c 1))
theorem W1_arg2 (c : Dev nD) : rG (W1 (F := Ideal) m ρ c) = gA m c := W1_of_ne m ρ c main_arg2 (by decide)
theorem W1_arg3 (c : Dev nD) : rB (W1 (F := Ideal) m ρ c) = bA m c := W1_of_ne m ρ c main_arg3 (by decide)
theorem W1_arg4 (c : Dev nD) : rP (W1 (F := Ideal) m ρ c) = pA m c := W1_of_ne m ρ c main_arg4 (by decide)

/-! ## Count, sum and sum of squares -/

theorem cnt_eq (c : Dev nD) (k : Fin 16) : cntT (W1 (F := Ideal) m ρ c) k = Spec.cnt (cA m c) k := by
  have h := Cert.Scatter.count_eq (cA m c) (broadcastInDim S131072x1 ![0] bcast_S131072_S131072x1_0 (cA m c))
    (fun n => Layout.bcast_col (by decide) bcast_S131072_S131072x1_0 (cA m c) n 0) k
  refine Eq.trans ?_ h
  have e0 : (broadcastInDim S16 ![] bcast_S_S16 (constant (F := Ideal) S_ .f32 0x00000000#32) : S16.Idx → EReal)
      = fun _ => (0 : EReal) := funext fun i => (Layout.bcast_scalar bcast_S_S16 _ i).trans Ideal.ofBits_zero_f32
  have e1 : (broadcastInDim S131072 ![] bcast_S_S131072 (constant (F := Ideal) S_ .f32 0x3F800000#32) : S131072.Idx → EReal)
      = fun _ => (1 : EReal) := funext fun i => (Layout.bcast_scalar bcast_S_S131072 _ i).trans Cert.Lib.ofBits_f32_one
  unfold cntT
  rw [W1_arg1, e0, e1]
  rfl

/-- The index over `(k, q)` with half `h` put in front. -/
theorem lift_half (hr : S2x16x512.Reduces [0] S16x512) (k : Fin 16) (q : Fin 512) (h : Fin 2) :
    hr.lift (ix2 k q) h = ix3 h k q := by
  funext a
  apply Fin.ext
  match a with
  | ⟨0, _⟩ => rfl
  | ⟨1, _⟩ => rfl
  | ⟨2, _⟩ => rfl

/-- The two halves' one-hot-weighted sums add up to the sum over the rows labelled `k`. -/
theorem halves_sum {ctx : Spec.SC.Idx → BitVec 32} (hctx : Spec.InRange ctx) (k : Fin 16) (f : Fin 131072 → EReal) :
    ∑ h : Fin 2, ∑ n ∈ Spec.half h, Spec.oh (ctx (ix1 n)) k * f n = ∑ n ∈ Spec.rows ctx k, f n := by
  have hfib := Finset.sum_fiberwise (s := (Finset.univ : Finset (Fin 131072)))
    (g := fun n : Fin 131072 => (⟨n.val / 65536, by have := n.isLt; omega⟩ : Fin 2))
    (f := fun n => Spec.oh (ctx (ix1 n)) k * f n)
  have hhalf : ∀ h : Fin 2, Spec.half h = Finset.univ.filter
      (fun n : Fin 131072 => (⟨n.val / 65536, by have := n.isLt; omega⟩ : Fin 2) = h) := by
    intro h
    unfold Spec.half
    refine Finset.filter_congr fun n _ => ?_
    rw [Fin.ext_iff]
  simp only [hhalf]
  rw [hfib, Spec.sum_oh_rows hctx Finset.univ k f]
  rfl

theorem sum_eq (c : Dev nD) (hctx : Spec.InRange (cA m c)) (k : Fin 16) (q : Fin 512) :
    sumT (W1 (F := Ideal) m ρ c) k q = Spec.s1 (xA m c) (cA m c) k q := by
  have hr : S2x16x512.Reduces [0] S16x512 := by decide
  unfold sumT
  show Ideal.hostReduceAdd reducesTo_S2x16x512_S16x512_d0 (rA0 (W1 (F := Ideal) m ρ c)) (Ideal.ofBits .f32 0x00000000#32) (ix2 k q) = _
  rw [Ideal.hostReduceAdd_single reducesTo_S2x16x512_S16x512_d0 hr, Ideal.ofBits_zero_f32, zero_add]
  refine Eq.trans (Finset.sum_congr rfl fun h _ => ?_) (halves_sum hctx k fun n => xA m c (ix2 n q))
  rw [lift_half hr k q h]
  exact StatsValue.sums m ρ c h k q

theorem sq_eq (c : Dev nD) (hctx : Spec.InRange (cA m c)) (k : Fin 16) (q : Fin 512) :
    sqT (W1 (F := Ideal) m ρ c) k q = Spec.s2 (xA m c) (cA m c) k q := by
  have hr : S2x16x512.Reduces [0] S16x512 := by decide
  unfold sqT
  show Ideal.hostReduceAdd reducesTo_S2x16x512_S16x512_d0 (rA1 (W1 (F := Ideal) m ρ c)) (Ideal.ofBits .f32 0x00000000#32) (ix2 k q) = _
  rw [Ideal.hostReduceAdd_single reducesTo_S2x16x512_S16x512_d0 hr, Ideal.ofBits_zero_f32, zero_add]
  refine Eq.trans (Finset.sum_congr rfl fun h _ => ?_)
    (halves_sum hctx k fun n => xA m c (ix2 n q) * xA m c (ix2 n q))
  rw [lift_half hr k q h]
  exact StatsValue.sumsqs m ρ c h k q

/-! ## The stored tables on a context that has a row -/

theorem wfT_eq (c : Dev nD) (hctx : Spec.InRange (cA m c)) (k : Fin 16) (q : Fin 512) (hk : 0 < Spec.cnt (cA m c) k) :
    wfT (W1 (F := Ideal) m ρ c) k q = Spec.w (xA m c) (cA m c) (gA m c) (pA m c) k q := by
  unfold wfT Spec.w
  rw [cnt_eq, sum_eq m ρ c hctx, sq_eq m ρ c hctx, W1_arg2, W1_arg4]
  have : Ideal.cmp .ogt (Spec.cnt (cA m c) k) 0 = 1#1 := by
    unfold Ideal.cmp
    simp only [decide_eq_true hk]
    rfl
  rw [this, select_one]

theorem bfT_eq (c : Dev nD) (hctx : Spec.InRange (cA m c)) (k : Fin 16) (q : Fin 512) (hk : 0 < Spec.cnt (cA m c) k) :
    bfT (W1 (F := Ideal) m ρ c) k q = Spec.b (xA m c) (cA m c) (gA m c) (bA m c) (pA m c) k q := by
  unfold bfT Spec.b
  rw [cnt_eq, sum_eq m ρ c hctx, sq_eq m ρ c hctx, W1_arg2, W1_arg3, W1_arg4]
  have : Ideal.cmp .ogt (Spec.cnt (cA m c) k) 0 = 1#1 := by
    unfold Ideal.cmp
    simp only [decide_eq_true hk]
    rfl
  rw [this, select_one]

/-! ## The result -/

theorem result (c : Dev nD)
    (hx : ∀ i, IsReal (xA m c i)) (hg : ∀ i, IsReal (gA m c i)) (hb : ∀ i, IsReal (bA m c i))
    (hp : ∀ i, IsReal (pA m c i)) (hpos : ∀ i, 0 < pA m c i) (hctx : Spec.InRange (cA m c)) :
    (W7 (F := Ideal) m ρ c (Proc.devRef .tc main_v42) : S131072x512.Idx → EReal)
      = Spec.out (xA m c) (cA m c) (gA m c) (bA m c) (pA m c) := by
  funext i
  obtain ⟨n, q, rfl⟩ : ∃ (n : Fin 131072) (q : Fin 512), i = ix2 n q := ⟨i 0, i 1, eq_ix2 i⟩
  refine (ApplyValue.result m ρ c n q).trans ?_
  simp only [t37 m ρ c, t38 m ρ c, t40 m ρ c, t41 m ρ c]
  exact Spec.applyRow_eq_out (xA m c) (cA m c) (gA m c) (bA m c) (pA m c) hx hg hb hp hpos hctx n q
    (fun k => wfT (W1 (F := Ideal) m ρ c) k q) (fun k => bfT (W1 (F := Ideal) m ρ c) k q)
    (fun k hk => wfT_eq m ρ c hctx k q hk) (fun k hk => bfT_eq m ρ c hctx k q hk)

end Cert.KernelIdeal.Bridge

end
-- ==== Proof.lean ====
/-
  Per-context batch normalisation with a prior scale: a two-pass kernel against a scatter/gather reference.

  Rows `n` of a 131072 × 512 matrix `x` carry labels in `[0, 16)`. The reference accumulates, per label, the count,
  the column sums and the column sums of squares by scatters, forms mean, biased variance `E[x²] − E[x]²`,
  `istd = (var + ε)^(-1/2)`, the weight `w = γ · istd · p^(-1/2)` and the offset `b = (β − γ · mean · istd) · p^(-1/2)`,
  gathers both at each row's label and returns `x · w + b` (rows of a label with no row keep `x`: there are none
  once labels are in range). The kernel gets the same sums from a first pass (a one-hot matrix product per tile of
  2048 rows, accumulated per half of the matrix, the halves added on the host) and applies the tables in a second
  pass by one-hot products, each table read as `t + (t − t)`.

  On the extended reals the two agree where the reference's own operations stay in their domain: labels index the
  16 contexts, and the priors are positive under `p^(-1/2)`. Then every table entry the second pass selects is a
  real number (the one-pass variance of real data is nonnegative, `ε > 0`), so `t − t = 0` and both programs
  compute `Spec.out`. Without positivity a prior `0` makes a weight `+∞`, and `+∞ − ∞` breaks the kernel's split.
-/
import proofs.«429366_j62783831933726_3_alg».proof.Defs
import proofs.«429366_j62783831933726_3_alg».proof.Proof.Gen.Kernel
import proofs.«429366_j62783831933726_3_alg».proof.Proof.Gen.Kernel.Frame
import proofs.«429366_j62783831933726_3_alg».proof.Proof.Gen.KernelIdeal
import proofs.«429366_j62783831933726_3_alg».proof.Proof.Gen.KernelIdeal.Frame
import proofs.«429366_j62783831933726_3_alg».proof.Proof.Gen.ReferenceIdeal
import proofs.«429366_j62783831933726_3_alg».proof.Proof.Gen.Pre_finite_inputs
import proofs.«429366_j62783831933726_3_alg».proof.Proof.KernelRun
import proofs.«429366_j62783831933726_3_alg».proof.Proof.RefRun
import proofs.«429366_j62783831933726_3_alg».proof.Proof.RefValue
import proofs.«429366_j62783831933726_3_alg».proof.Proof.PreFacts
import proofs.«429366_j62783831933726_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at `Spec.out` of the arguments: the kernel by the two passes and the host arithmetic between
    them, the reference by its scatters and gathers; the precondition supplies real inputs, labels in range and
    positive priors. -/
theorem algebraic : Cert.algebraic_KernelIdeal_ReferenceIdeal := by
  intro m ρ m' ρ' hpre hagree
  have hf := fun c => Cert.PreFacts.of_pre _ _ _ _ _ (hpre c)
  refine ⟨fun c => Cert.Spec.out (Cert.KernelIdeal.Bridge.xA m c) (Cert.KernelIdeal.Bridge.cA m c)
      (Cert.KernelIdeal.Bridge.gA m c) (Cert.KernelIdeal.Bridge.bA m c) (Cert.KernelIdeal.Bridge.pA m c), ?_, ?_⟩
  · refine (θ_run Cert.KernelIdeal.defs _ _).mono (fun _ h c => ⟨(h c).1.trans ?_, (h c).2⟩)
      (Cert.KernelIdeal.GenRun.run_main (F := Ideal) m ρ)
    obtain ⟨hx, hg, hb, hp, hctx, hpos⟩ := hf c
    exact Cert.KernelIdeal.Bridge.result m ρ c hx hg hb hp hpos hctx
  · refine (θ_run Cert.ReferenceIdeal.defs _ _).mono (fun _ h c => ⟨(h c).1.trans ?_, (h c).2⟩)
      (Cert.ReferenceIdeal.ValueP.run (F := Ideal) m' ρ')
    obtain ⟨hx, hg, hb, hp, hctx, hpos⟩ := hf c
    obtain ⟨e0, e1, e2, e3, e4⟩ := hagree c
    have hctx' : Cert.Spec.InRange (m' ((c.tc : Thread Cert.ReferenceIdeal.nD Cert.ReferenceIdeal.τ).loc Cert.ReferenceIdeal.main_arg1)) := by
      rw [e1]; exact hctx
    refine (Cert.ReferenceIdeal.RefValue.result m' c hctx').trans ?_
    rw [e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
